-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64x32 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x64 : Shape := ⟨2, ![1, 64]⟩
abbrev S1x32 : Shape := ⟨2, ![1, 32]⟩
abbrev S10000x32 : Shape := ⟨2, ![10000, 32]⟩
abbrev S400x10000 : Shape := ⟨2, ![400, 10000]⟩
abbrev S400x32 : Shape := ⟨2, ![400, 32]⟩
abbrev S10000x64 : Shape := ⟨2, ![10000, 64]⟩
abbrev S400x64 : Shape := ⟨2, ![400, 64]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x64, .f32⟩
  | .hbm, ⟨7, _⟩ => ⟨S1x32, .f32⟩
  | .hbm, ⟨8, _⟩ => ⟨S10000x32, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x32, .f32⟩
  | .local _ .vmem, ⟨6, _⟩ => ⟨S1x32, .f32⟩
  | .local _ .vmem, ⟨7, _⟩ => ⟨S400x32, .f32⟩
  | .local _ .vmem, ⟨8, _⟩ => ⟨S400x32, .f32⟩
  | .local _ .vmem, ⟨9, _⟩ => ⟨S10000x64, .f32⟩
  | .local _ .vmem, ⟨10, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v20 : BitVec 32 := Scalar.muli arg0 c400_i32
  let v21 : Index := Scalar.indexCast v20
  let c0_13 : Index := 0#32
  ![v21.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c25_i32 : BitVec 32 := 25#32
  let v0 : BitVec 1 := Scalar.cmpi .slt arg0 c25_i32
  let c49_i32 : BitVec 32 := 49#32
  let v1 : BitVec 32 := Scalar.subi c49_i32 arg0
  let v2 : BitVec 32 := Scalar.select v0 arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 1 := Scalar.cmpi .slt arg0 c25_i32
  let c49_i32 : BitVec 32 := 49#32
  let v1 : BitVec 32 := Scalar.subi c49_i32 arg0
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x32_S64x32_0_0 : ∀ a, (![0, 0] : Fin 2 → Nat) a + S64x32.size a ≤ S64x32.size a
  h_S64x32 : 0 < S64x32.numel
  h_S400x32 : 0 < S400x32.numel
  shapeCasts_S400x32_S400x32 : S400x32.ShapeCasts S400x32
  inb_S10000x32_S10000x32_0_0 : ∀ a, (![0, 0] : Fin 2 → Nat) a + S10000x32.size a ≤ S10000x32.size a
  h_S10000x32 : 0 < S10000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S400x32_S400x32_0_0 : ∀ a, (![0, 0] : Fin 2 → Nat) a + S400x32.size a ≤ S400x32.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x10000_S10000x32_S400x32_1_0_0_1_n_n_wf : DotDims.WF S400x10000 S10000x32 S400x32 [1] [0] [0] [1] [] []
  hrank0 : 0 < grid0.rank
  k0_off1_inb : ∀ i : grid0.Coords, ∀ (k0_h2 : k0_cond2 i = 1#1), ∀ a, (k0_off1 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x32.size a ≤ S10000x32.size a
  hwx0_6 : ∀ i : grid0.Coords, EltTy.bits .f32 = 32 ∨ (Rect.block (s := S10000x32) S400x32.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x32, .f32⟩
  | .hbm, ⟨15, _⟩ => ⟨S10000x32, .f32⟩
  | .hbm, ⟨16, _⟩ => ⟨S1x32, .f32⟩
  | .hbm, ⟨17, _⟩ => ⟨S10000x32, .f32⟩
  | .hbm, ⟨18, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.K.Shared.lean ====
/-
  What the three runs of the kernel body and the proof data share. The grid has fifty points. The body has three
  conditionals on the grid coordinate: the first holds at point 0 only (the product x·W1 is computed once), the second
  at points 0‥24 (one stripe of four hundred rows of the hidden layer's product with W2 is stored per point), the third
  at points 25‥49 (one stripe of the output is stored per point). Their printed word-level conditions are put in closed
  form here, decided over the grid; the staging memrefs the pipeline passes at a point and the two scratch buffers are
  named; the class invariant is restated over the scratch memrefs; and the frame claim's post is read off a run to the
  relational frame post.
-/
import proofs.«131214_g16277926052538_cont_week2b_966_6_alg».proof.Proof.Gen.Kernel.Frame
import proofs.«131214_g16277926052538_cont_week2b_966_6_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three conditions, in closed form over the grid -/

/-- The first conditional's condition: the grid coordinate equals zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The second conditional's condition: the grid coordinate is below 25. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- The third conditional's condition: the grid coordinate is at least 25. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- The row offset of the stripe stored at a point of the second conditional: four hundred times the coordinate. -/
theorem hoff1 : ∀ t : Fin cfg0.N, t.val < 25 → k0_off1 (grid0.coords t) = ![400 * t.val, 0] :=
  (by decide +kernel : ∀ t : Fin grid0.N, t.val < 25 → k0_off1 (grid0.coords t) = ![400 * t.val, 0])

/-! ## The input windows are never idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x32 .f32 := win0_6.stage (cfg0.slots t 6)
abbrev hs0_6 (t : Fin cfg0.N) : (ms0_6 t).IsWhole := hstage0_6 ((cfg0.slots t 6).cast nbuf0_6)
/-- The two scratch operands: whole scoped buffers of the kernel's own. -/
abbrev scM0_0 : Memref sig .tc .vmem S10000x64 .f32 := Memref.whole cc0_scratch0
abbrev scM0_1 : Memref sig .tc .vmem S10000x32 .f32 := Memref.whole cc0_scratch1

/-- The class invariant, over the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The frame claim's post from a run to the relational frame post -/

/-- For relational proof data whose arrays are the region-entry contents, a run to the relational frame post, read at
    the argument arrays (a staged input keeps its entry contents; an array no window stages is in the post's second
    clause), is the frame claim's post. -/
theorem frame_of_r (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((hA c 1).trans (V_main_arg0 m c)),
      (Pipeline.RDat.FramePost.arr_in h c 0 rfl).trans ((hA c 0).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

end Cert.Kernel.Hand

end
-- ==== Proof.K.Defs.lean ====
/-
  The values the fused two-layer network passes from grid point to grid point, and the pipeline's proof data.
  Point 0 stores S1 = x·W1 whole into the first scratch buffer. Point t < 25 stores, into rows [400 t, 400 t + 400)
  of the second scratch buffer, the stripe  max(adj_t · S1 + b1, 0) · W2  where adj_t is the t-th stripe of four hundred
  rows of adj; after point 24 that buffer holds the whole S2. Point t ≥ 25 stores the output stripe  adj_(49−t) · S2 + b2
  into the output window's staging buffer, which is written back after the body. At points below 25 the body stores
  nothing into the output's staging buffer, and the write-back after point 24 moves whatever it holds into block 0 of the
  output array; block 0 is written again, last, after point 49. So the proof data name what the body leaves in the output
  buffer only from point 25 on: the window's relation says nothing before.
-/
import proofs.«131214_g16277926052538_cont_week2b_966_6_alg».proof.Proof.K.Shared
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `n` of the grid. -/
abbrev pt (n : ℕ) (h : n < 50) : Fin cfg0.N := ⟨n, lt_of_lt_of_eq h (show (50 : ℕ) = cfg0.N from N_0.symm)⟩

/-- S1 = x·W1, from the two resident blocks (fetched at point 0 and never moved). -/
def S1val (c : Dev nD) : Vec F S10000x64 .f32 :=
  k0_pay1 (iblk m c 1 (pt 0 (by omega))) (iblk m c 2 (pt 0 (by omega)))

/-- The stripe of S2 that point `t` stores: max(adj_t·S1 + b1, 0)·W2. -/
def S2blk (c : Dev nD) (t : Fin cfg0.N) : Vec F S400x32 .f32 :=
  k0_pay2 (iblk m c 0 t) (S1val m c) (iblk m c 3 t) (iblk m c 4 t)

/-- S2 whole: row r belongs to the stripe of point r / 400, at row r % 400 of it. -/
def S2full (c : Dev nD) : Vec F S10000x32 .f32 := fun i =>
  S2blk m c (pt ((i 0).val / 400) (by have := ValueIdx.idx2_lt0 i; omega))
    (ValueIdx.ix2 (⟨(i 0).val % 400, Nat.mod_lt _ (by omega)⟩ : Fin 400) (⟨(i 1).val, ValueIdx.idx2_lt1 i⟩ : Fin 32))

/-- The output stripe point `t` (from 25 on) stores: adj_t·S2 + b2, adj_t the stripe the point has staged. -/
def outBlk (c : Dev nD) (t : Fin cfg0.N) : Vec F S400x32 .f32 :=
  k0_pay3 (iblk m c 0 t) (S2full m c) (iblk m c 5 t)

/-- What the second scratch buffer holds after point `n`: its rows below 400 (n + 1) are S2's. -/
def S2ok (c : Dev nD) (n : ℕ) (d : Vec F S10000x32 .f32) : Prop :=
  ∀ i : S10000x32.Idx, (i 0).val < 400 * (n + 1) → d i = S2full m c i

/-- Once every stripe is stored the buffer holds S2. -/
theorem S2ok_full (c : Dev nD) (n : ℕ) (hn : 24 ≤ n) (d : Vec F S10000x32 .f32) (h : S2ok m c n d) : d = S2full m c :=
  funext fun i => h i (by have := ValueIdx.idx2_lt0 i; omega)

theorem S2ok_mono (c : Dev nD) {n n' : ℕ} (hn : 24 ≤ n) (d : Vec F S10000x32 .f32) (h : S2ok m c n d) : S2ok m c n' d :=
  fun i _ => h i (by have := ValueIdx.idx2_lt0 i; omega)

/-- The invariant between points: before point 0 the class's (both scratch buffers at anything); after point `n` the
    first scratch buffer at S1, the second with its rows below 400 (n + 1) at S2's, the generator register at some state. -/
def PhiS (c : Dev nD) : (n : ℕ) → n ≤ cfg0.N → sProp 𝕄
  | 0, _ => Pipeline.ΦA spec0 c
  | n + 1, _ => iprop(iprop(owns (c : Thread nD τ) scM0_0 fullShare (S1val m c) ∗ (∃ d, ⌜S2ok m c n d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (S1val m c) ∗ (∃ d, ⌜S2ok m c n d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (S1val m c) ∗ (∃ d, ⌜S2ok m c (n - 1) d⌝ ∗ owns (c : Thread nD τ) scM0_1 fullShare d)) ∗ (∃ r, prngReg c r)) := by
  cases n with
  | zero => exact absurd rfl hz
  | succ n => rfl

/-- The proof data in exact form: every input's buffer at its block; the output's at the stripe the point stores (read
    only from point 25 on, through the relation below). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

/-- The output window's relation: from point 25 on the body leaves the point's output stripe; before, anything. -/
def R6 (c : Dev nD) : Fin cfg0.N → (Y X : Vec F S400x32 .f32) → Prop :=
  fun t _ X => 25 ≤ t.val → X = outBlk m c t

/-- Which windows' relations are replaced: the output's only. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => none
    | ⟨4, _⟩ => none
    | ⟨5, _⟩ => none
    | ⟨6, _⟩ => some (R6 m c)

/-- THE PROOF DATA: the exact data read relationally, the output window's relation replaced by `R6`. -/
def rd (c : Dev nD) : RDat τ (Elt F) Unit ℕ (UR sig nD τ) ℕ cfg0 c := (dat m c).toR.override (ovr m c)

theorem rd_A (c : Dev nD) (w : Fin cfg0.W) : (rd m c).A w = V m c (Pipeline.arrRef spec0 w) := rfl

theorem dat_A (c : Dev nD) (w : Fin cfg0.W) : (dat m c).A w = V m c (Pipeline.arrRef spec0 w) := by
  dsimp only [dat]

theorem rd_Phi (c : Dev nD) (t : Fin (cfg0.N + 1)) : (rd m c).Φ t = PhiS m c t.val (Nat.le_of_lt_succ t.isLt) := rfl

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem after0_5 (c : Dev nD) (t : Fin cfg0.N) : (dat m c).after 5 t = iblk m c 5 t := by dsimp only [dat]

/-- What the body may find in an input's buffer is the input's block at the point. -/
theorem finds0_0 (c : Dev nD) (t : Fin cfg0.N) (Y) (h : (rd m c).Finds 0 t Y) : Y = iblk m c 0 t := by
  obtain ⟨d, rfl⟩ := (dat m c).toR_finds 0 t Y (((dat m c).toR.override_finds (ovr := ovr m c) rfl t Y).mp h)
  exact before0_0_of m (dat m c) (dat_A m c 0) (after0_0 m c) t d
theorem finds0_1 (c : Dev nD) (t : Fin cfg0.N) (Y) (h : (rd m c).Finds 1 t Y) : Y = iblk m c 1 t := by
  obtain ⟨d, rfl⟩ := (dat m c).toR_finds 1 t Y (((dat m c).toR.override_finds (ovr := ovr m c) rfl t Y).mp h)
  exact before0_1_of m (dat m c) (dat_A m c 1) (after0_1 m c) t d
theorem finds0_2 (c : Dev nD) (t : Fin cfg0.N) (Y) (h : (rd m c).Finds 2 t Y) : Y = iblk m c 2 t := by
  obtain ⟨d, rfl⟩ := (dat m c).toR_finds 2 t Y (((dat m c).toR.override_finds (ovr := ovr m c) rfl t Y).mp h)
  exact before0_2_of m (dat m c) (dat_A m c 2) (after0_2 m c) t d
theorem finds0_3 (c : Dev nD) (t : Fin cfg0.N) (Y) (h : (rd m c).Finds 3 t Y) : Y = iblk m c 3 t := by
  obtain ⟨d, rfl⟩ := (dat m c).toR_finds 3 t Y (((dat m c).toR.override_finds (ovr := ovr m c) rfl t Y).mp h)
  exact before0_3_of m (dat m c) (dat_A m c 3) (after0_3 m c) t d
theorem finds0_4 (c : Dev nD) (t : Fin cfg0.N) (Y) (h : (rd m c).Finds 4 t Y) : Y = iblk m c 4 t := by
  obtain ⟨d, rfl⟩ := (dat m c).toR_finds 4 t Y (((dat m c).toR.override_finds (ovr := ovr m c) rfl t Y).mp h)
  exact before0_4_of m (dat m c) (dat_A m c 4) (after0_4 m c) t d
theorem finds0_5 (c : Dev nD) (t : Fin cfg0.N) (Y) (h : (rd m c).Finds 5 t Y) : Y = iblk m c 5 t := by
  obtain ⟨d, rfl⟩ := (dat m c).toR_finds 5 t Y (((dat m c).toR.override_finds (ovr := ovr m c) rfl t Y).mp h)
  exact before0_5_of m (dat m c) (dat_A m c 5) (after0_5 m c) t d

/-- What the relation asks of an input's buffer after the body: its block, as the body found it. -/
theorem after_in0 (c : Dev nD) (t : Fin cfg0.N) (Y) : (rd m c).after 0 t Y (iblk m c 0 t) := by
  rw [show (rd m c).after 0 = (dat m c).toR.after 0 from (dat m c).toR.override_after_of_eq_none rfl]
  show (dat m c).Leaves 0 t _
  rw [Dat.Leaves.live_iff _ (.inl (liveAt0_0 t))]; exact (after0_0 m c t).symm
theorem after_in1 (c : Dev nD) (t : Fin cfg0.N) (Y) : (rd m c).after 1 t Y (iblk m c 1 t) := by
  rw [show (rd m c).after 1 = (dat m c).toR.after 1 from (dat m c).toR.override_after_of_eq_none rfl]
  show (dat m c).Leaves 1 t _
  rw [Dat.Leaves.live_iff _ (.inl (liveAt0_1 t))]; exact (after0_1 m c t).symm
theorem after_in2 (c : Dev nD) (t : Fin cfg0.N) (Y) : (rd m c).after 2 t Y (iblk m c 2 t) := by
  rw [show (rd m c).after 2 = (dat m c).toR.after 2 from (dat m c).toR.override_after_of_eq_none rfl]
  show (dat m c).Leaves 2 t _
  rw [Dat.Leaves.live_iff _ (.inl (liveAt0_2 t))]; exact (after0_2 m c t).symm
theorem after_in3 (c : Dev nD) (t : Fin cfg0.N) (Y) : (rd m c).after 3 t Y (iblk m c 3 t) := by
  rw [show (rd m c).after 3 = (dat m c).toR.after 3 from (dat m c).toR.override_after_of_eq_none rfl]
  show (dat m c).Leaves 3 t _
  rw [Dat.Leaves.live_iff _ (.inl (liveAt0_3 t))]; exact (after0_3 m c t).symm
theorem after_in4 (c : Dev nD) (t : Fin cfg0.N) (Y) : (rd m c).after 4 t Y (iblk m c 4 t) := by
  rw [show (rd m c).after 4 = (dat m c).toR.after 4 from (dat m c).toR.override_after_of_eq_none rfl]
  show (dat m c).Leaves 4 t _
  rw [Dat.Leaves.live_iff _ (.inl (liveAt0_4 t))]; exact (after0_4 m c t).symm
theorem after_in5 (c : Dev nD) (t : Fin cfg0.N) (Y) : (rd m c).after 5 t Y (iblk m c 5 t) := by
  rw [show (rd m c).after 5 = (dat m c).toR.after 5 from (dat m c).toR.override_after_of_eq_none rfl]
  show (dat m c).Leaves 5 t _
  rw [Dat.Leaves.live_iff _ (.inl (liveAt0_5 t))]; exact (after0_5 m c t).symm

/-- The output window's relation, opened. -/
theorem after_out (c : Dev nD) (t : Fin cfg0.N) (Y X) : (rd m c).after 6 t Y X ↔ (25 ≤ t.val → X = outBlk m c t) := by
  rw [show (rd m c).after 6 = R6 m c from (dat m c).toR.override_after_of_eq_some rfl]
  exact Iff.rfl

/-- What the body may leave in the output's buffer from point 25 on is the point's output stripe. -/
theorem leaves_out (c : Dev nD) (t : Fin cfg0.N) (X) (h : (rd m c).Leaves 6 t X) (ht : 25 ≤ t.val) : X = outBlk m c t := by
  obtain ⟨Y, -, hY⟩ := h
  exact (after_out m c t Y X).mp hY ht

end Cert.Kernel.Hand

end
-- ==== Proof.K.Steps.lean ====
/-
  What the body's stores into the two scratch buffers mean for the values carried between grid points, apart from any
  separation logic. A store through the whole-buffer rectangle leaves its payload. A store of four hundred rows at row
  offset 400 t into the second scratch buffer changes exactly the rows [400 t, 400 t + 400): if the rows below 400 t held
  S2's rows, the rows below 400 (t + 1) now do.
-/
import proofs.«131214_g16277926052538_cont_week2b_966_6_alg».proof.Proof.K.Defs
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-shape offsets are zero, however spelt. -/
theorem hzero2 : (![0, 0] : Fin 2 → Nat) = fun _ => 0 := funext fun a => by fin_cases a <;> rfl

/-- One store through the whole-buffer rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The stripe stored at point `t < 25`: afterwards the second scratch buffer's rows below 400 (t + 1) are S2's, if
    before the store its rows below 400 t were (nothing is asked at point 0). -/
theorem S2ok_store (c : Dev nD) (t : Fin cfg0.N) (ht : t.val < 25) {κ : Kind} {sp : Space} (v : View sig κ sp S10000x32 .f32)
    (fv : v.ty.Contents (Elt F)) (hprev : t.val ≠ 0 → S2ok m c (t.val - 1) (v.read (Elt F) fv))
    (inb : ∀ a, (k0_off1 (grid0.coords t)) a + S400x32.size a ≤ S10000x32.size a) :
    S2ok m c t.val (v.read (Elt F) (v.writes (Elt F) fv
      [(⟨Rect.unit (s := S10000x32) (k0_off1 (grid0.coords t)) S400x32.size inb, S2blk m c t⟩ : View.Piece (Elt F) S10000x32 .f32)])) := by
  intro i hi
  have hoff := hoff1 t ht
  have hi0 := ValueIdx.idx2_lt0 i
  have hi1 := ValueIdx.idx2_lt1 i
  by_cases hin : 400 * t.val ≤ (i 0).val
  · -- a row of the stripe just stored
    have hlt : (i 0).val - 400 * t.val < 400 := by omega
    rw [View.read_writes_cons_rows_of_mem (d := ![10000, 32]) v fv inb (S2blk m c t) [] i
      (ValueIdx.ix2 (⟨(i 0).val - 400 * t.val, hlt⟩ : Fin 400) (⟨(i 1).val, hi1⟩ : Fin 32)) hoff
      (by show (i 0).val = 400 * t.val + ((i 0).val - 400 * t.val); omega) rfl]
    unfold S2full
    have e1 : pt ((i 0).val / 400) (by omega) = t := Fin.ext (by
      show (i 0).val / 400 = t.val
      exact Nat.div_eq_of_lt_le (by omega) (by omega))
    have e2 : (i 0).val % 400 = (i 0).val - 400 * t.val := by
      have := Nat.div_add_mod (i 0).val 400
      have e : (i 0).val / 400 = t.val := Nat.div_eq_of_lt_le (by omega) (by omega)
      rw [e] at this; omega
    rw [e1]
    exact congrArg (S2blk m c t) (congrArg (fun a : Fin 400 => ValueIdx.ix2 a (⟨(i 1).val, hi1⟩ : Fin 32)) (Fin.ext e2.symm))
  · -- a row below the stripe: untouched, and it was S2's already
    have hne : t.val ≠ 0 := by omega
    rw [View.read_writes_cons_rows_of_not_mem (d := ![10000, 32]) (W := 400) v fv inb (S2blk m c t) [] i hoff rfl (Or.inl (by omega)),
      View.writes_nil]
    exact hprev hne i (by omega)

end Cert.Kernel.Hand

end
-- ==== Proof.K.RunA.lean ====
/-
  The kernel body at the first grid point: the first and the second conditional are taken. The body loads x and W1
  and stores their product S1 over the whole first scratch buffer; then it loads the staged stripe of adj, reads S1 back,
  loads b1 and W2, and stores max(adj_0·S1 + b1, 0)·W2 into the first four hundred rows of the second scratch buffer.
  The run is made by the symbolic executor on whole memrefs; the pieces the two scratch buffers end with are the witness
  it finds.
-/
import proofs.«131214_g16277926052538_cont_week2b_966_6_alg».proof.Proof.K.Shared
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A. On whole memrefs — the inputs at their contents, the output buffer and the first scratch buffer at
    anything, the second scratch buffer at named contents — the body runs to the continuation holding the inputs and the
    output buffer at something as they were, the first scratch buffer with the pieces `LS.1` written and the second at
    its former contents with the pieces `LS.2` written. -/
noncomputable def kernelRun0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs1 : Vec F S10000x32 .f32) :
    { LS : List (View.Piece (Elt F) S10000x64 .f32) × List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ f, arg8.view.loc (c : Thread nD τ) ↦[arg8.view.set]{fullShare} arg8.view.writes (Elt F) f LS.1) ∗ (arg9.view.loc (c : Thread nD τ) ↦[arg9.view.set]{fullShare} arg9.view.writes (Elt F) (harg9.unread xs1) LS.2)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨(?_, ?_), fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]; · iexists _; iexact HS0
    iexact HS1

/-- The whole-shape offsets are zero, however spelt. -/
theorem hz2 : (![0, 0] : Fin 2 → Nat) = fun _ => 0 := funext fun a => by fin_cases a <;> rfl

/-- Case A's pieces for the first scratch buffer: one store of x·W1 over the whole buffer. -/
theorem piecesA_S1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs1 : Vec F S10000x32 .f32) :
    (kernelRun0_A c i arg1 harg1 arg2 harg2 arg3 harg3 arg4 harg4 arg5 harg5 arg6 harg6 arg7 harg7 arg8 harg8 arg9 harg9 hc0 hc1 hc2 x0 x1 x2 x3 x4 x5 xs1).1.1
      = [(⟨Rect.unit (s := S10000x64) ![0, 0] S10000x64.size inb_S10000x64_S10000x64_0_0, k0_pay1 x1 x2⟩ : View.Piece (Elt F) S10000x64 .f32)] := by
  unfold kernelRun0_A; dsimp only; sl_unfold_words
  simp only [View.readAt_eq_ld, harg2.read_unread, harg3.read_unread, View.ld_unit_zero (S := S10000x128) hz2, View.ld_unit_zero (S := S128x64) hz2]

/-- Case A's pieces for the second scratch buffer: one store, into the four hundred rows at the coordinate's offset, of
    the stripe computed from the staged block of adj, the product just stored (read back), b1 and W2. -/
theorem piecesA_S2 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs1 : Vec F S10000x32 .f32) :
    (kernelRun0_A c i arg1 harg1 arg2 harg2 arg3 harg3 arg4 harg4 arg5 harg5 arg6 harg6 arg7 harg7 arg8 harg8 arg9 harg9 hc0 hc1 hc2 x0 x1 x2 x3 x4 x5 xs1).1.2
      = [(⟨Rect.unit (s := S10000x32) (k0_off1 i) S400x32.size (k0_off1_inb i hc1), k0_pay2 x0 (k0_pay1 x1 x2) x3 x4⟩ : View.Piece (Elt F) S10000x32 .f32)] := by
  unfold kernelRun0_A; dsimp only; sl_unfold_words
  simp only [View.readAt_eq_ld, harg1.read_unread, harg2.read_unread, harg3.read_unread, harg4.read_unread, harg5.read_unread,
    View.ld_unit_zero (S := S400x10000) hz2, View.ld_unit_zero (S := S10000x128) hz2, View.ld_unit_zero (S := S128x64) hz2,
    View.ld_unit_zero (S := S1x64) hz2, View.ld_unit_zero (S := S64x32) hz2, View.readCov_unit_zero (S := S10000x64) _ hz2]

end Cert.Kernel.Hand

end
-- ==== Proof.K.RunB.lean ====
/-
  The kernel body at a point of the first phase after the first (grid coordinate 1‥24): only the second conditional is
  taken. The body loads the staged stripe of adj, the whole first scratch buffer (S1), b1 and W2, and stores
  max(adj_t·S1 + b1, 0)·W2 into four hundred rows of the second scratch buffer, at the row offset the coordinate
  gives. The run is made by the symbolic executor on whole memrefs; the pieces the second scratch buffer ends with are
  the witness it finds.
-/
import proofs.«131214_g16277926052538_cont_week2b_966_6_alg».proof.Proof.K.Shared
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B. On whole memrefs — the inputs at their contents, the output buffer at anything, the two scratch buffers at
    named contents — the body runs to the continuation holding the inputs, the output buffer at something and the first
    scratch buffer as they were, and the second scratch buffer at its former contents with the pieces `LS` written. -/
noncomputable def kernelRun0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) :
    { LS : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (arg9.view.loc (c : Thread nD τ) ↦[arg9.view.set]{fullShare} arg9.view.writes (Elt F) (harg9.unread xs1) LS)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]
    · iexists _; isplitr; · ipureintro; exact harg8.read_unread _
      iexact HS0
    iexact HS1

/-- Case B's pieces for the second scratch buffer: one store, into the four hundred rows at the coordinate's offset, of
    the stripe computed from the staged block of adj, the first scratch buffer's contents, b1 and W2. -/
theorem piecesB_S2 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) :
    (kernelRun0_B c i arg1 harg1 arg2 harg2 arg3 harg3 arg4 harg4 arg5 harg5 arg6 harg6 arg7 harg7 arg8 harg8 arg9 harg9 hc0 hc1 hc2 x0 x1 x2 x3 x4 x5 xs0 xs1).1
      = [(⟨Rect.unit (s := S10000x32) (k0_off1 i) S400x32.size (k0_off1_inb i hc1), k0_pay2 x0 xs0 x3 x4⟩ : View.Piece (Elt F) S10000x32 .f32)] := by
  have hz2 : (![0, 0] : Fin 2 → Nat) = fun _ => 0 := funext fun a => by fin_cases a <;> rfl
  unfold kernelRun0_B; dsimp only; sl_unfold_words
  simp only [View.readAt_eq_ld, harg1.read_unread, harg4.read_unread, harg5.read_unread, harg8.read_unread,
    View.ld_unit_zero (S := S400x10000) hz2, View.ld_unit_zero (S := S10000x64) hz2,
    View.ld_unit_zero (S := S1x64) hz2, View.ld_unit_zero (S := S64x32) hz2]

end Cert.Kernel.Hand

end
-- ==== Proof.K.RunC.lean ====
/-
  The kernel body at a point of the third phase (grid coordinate at least 25): only the third conditional is taken.
  The body loads the staged stripe of adj, the whole second scratch buffer (S2) and b2, and stores their product plus
  b2 over the whole output staging buffer. The run is made by the symbolic executor on whole memrefs; the pieces the
  output buffer ends with are the witness it finds.
-/
import proofs.«131214_g16277926052538_cont_week2b_966_6_alg».proof.Proof.K.Shared
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C. On whole memrefs — the inputs at their contents, the output buffer at anything, the two scratch buffers at
    named contents — the body runs to the continuation holding the inputs and both scratch buffers as they were and the
    output buffer with the pieces `LO` written. -/
noncomputable def kernelRun0_C (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) :
    { LO : List (View.Piece (Elt F) S400x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xs0 ∗ owns (c : Thread nD τ) arg9 fullShare xs1) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    iexists _; isplitr; · ipureintro; exact harg9.read_unread _
    iexact HS1

/-- Case C's pieces cover the output staging buffer: one store of the whole block. -/
theorem coverC (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) (y : S400x32.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 hc2 x0 x1 x2 x3 x4 x5 xs0 xs1).1 S400x32.size (by sl_kernel_rfl) y

/-- What case C leaves in the output staging buffer, whatever it held: the stripe's product with the second scratch
    buffer's contents, plus the bias row. -/
theorem outC_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) (f : arg7.view.ty.Contents (Elt F)) :
    arg7.view.read (Elt F) (arg7.view.writes (Elt F) f (kernelRun0_C c i arg1 harg1 arg2 harg2 arg3 harg3 arg4 harg4 arg5 harg5 arg6 harg6 arg7 harg7 arg8 harg8 arg9 harg9 hc0 hc1 hc2 x0 x1 x2 x3 x4 x5 xs0 xs1).1) = k0_pay3 x0 xs1 x5 := by
  rw [View.read_writes_eq_canon _ _ _ (coverC c i arg1 harg1 arg2 harg2 arg3 harg3 arg4 harg4 arg5 harg5 arg6 harg6 arg7 harg7 arg8 harg8 arg9 harg9 hc0 hc1 hc2 x0 x1 x2 x3 x4 x5 xs0 xs1)]
  unfold kernelRun0_C; dsimp only; sl_unfold_words
  have hz : (![0, 0] : Fin 2 → Nat) = fun _ => 0 := funext fun a => by fin_cases a <;> rfl
  rw [View.canon_unit_zero hz]
  simp only [View.readAt_eq_ld, harg1.read_unread, harg9.read_unread, harg6.read_unread, View.ld_unit_zero (S := S400x10000) hz, View.ld_unit_zero (S := S10000x32) hz, View.ld_unit_zero (S := S1x32) hz]

end Cert.Kernel.Hand

end
-- ==== Proof.K.Body.lean ====
/-
  The body obligation of the relational proof data, at every grid point. The point's case is read off its number: point 0
  (the first two conditionals taken), points 1‥24 (the second), points 25‥49 (the third). In each case the body's run on
  whole memrefs applies: the inputs' buffers hold their blocks; the invariant hands over the two scratch buffers — at
  anything before point 0, afterwards the first at S1 and the second with its rows below 400 t at S2's — and takes them
  back with the first at S1 and the second with its rows below 400 (t + 1) at S2's (from point 24 on: all of S2). The
  output's buffer comes back at something in the first two cases and at the point's output stripe in the third.
-/
import proofs.«131214_g16277926052538_cont_week2b_966_6_alg».proof.Proof.K.Steps
import proofs.«131214_g16277926052538_cont_week2b_966_6_alg».proof.Proof.K.RunA
import proofs.«131214_g16277926052538_cont_week2b_966_6_alg».proof.Proof.K.RunB
import proofs.«131214_g16277926052538_cont_week2b_966_6_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (rd m c).Φ t.castSucc = PhiS m c t.val (Nat.le_of_lt t.isLt) := by
  rw [rd_Phi]; simp only [Fin.coe_castSucc]

theorem Phi_succ (c : Dev nD) (t : Fin cfg0.N) : (rd m c).Φ t.succ = PhiS m c (t.val + 1) t.isLt := rfl

set_option maxHeartbeats 9600000 in
/-- The body at any point, on what the pipeline hands it. -/
theorem sound_body (c : Dev nD) (t : Fin cfg0.N)
    (Y : (w : Fin cfg0.W) → (cfg0.win w).block.Idx → Elt F (cfg0.win w).elt) (hY : ∀ w, (rd m c).Finds w t (Y w)) :
    iprop((rd m c).Φ t.castSucc ∗ (rd m c).owesAt () t.castSucc
      ∗ owns (c : Thread nD τ) (ms0_0 t) fullShare (Y 0) ∗ owns (c : Thread nD τ) (ms0_1 t) fullShare (Y 1)
      ∗ owns (c : Thread nD τ) (ms0_2 t) fullShare (Y 2) ∗ owns (c : Thread nD τ) (ms0_3 t) fullShare (Y 3)
      ∗ owns (c : Thread nD τ) (ms0_4 t) fullShare (Y 4) ∗ owns (c : Thread nD τ) (ms0_5 t) fullShare (Y 5)
      ∗ owns (c : Thread nD τ) (ms0_6 t) fullShare (Y 6))
    ⊢ wp frame (wpE (defs₀ (F := F)) Variants.none c none) Set.univ (bodyAt0 t) (fun _ =>
      iprop((rd m c).Φ t.succ ∗ (rd m c).owesAt () t.succ
        ∗ (∃ X, ⌜(rd m c).after 0 t (Y 0) X⌝ ∗ owns (c : Thread nD τ) (ms0_0 t) fullShare X)
        ∗ (∃ X, ⌜(rd m c).after 1 t (Y 1) X⌝ ∗ owns (c : Thread nD τ) (ms0_1 t) fullShare X)
        ∗ (∃ X, ⌜(rd m c).after 2 t (Y 2) X⌝ ∗ owns (c : Thread nD τ) (ms0_2 t) fullShare X)
        ∗ (∃ X, ⌜(rd m c).after 3 t (Y 3) X⌝ ∗ owns (c : Thread nD τ) (ms0_3 t) fullShare X)
        ∗ (∃ X, ⌜(rd m c).after 4 t (Y 4) X⌝ ∗ owns (c : Thread nD τ) (ms0_4 t) fullShare X)
        ∗ (∃ X, ⌜(rd m c).after 5 t (Y 5) X⌝ ∗ owns (c : Thread nD τ) (ms0_5 t) fullShare X)
        ∗ (∃ X, ⌜(rd m c).after 6 t (Y 6) X⌝ ∗ owns (c : Thread nD τ) (ms0_6 t) fullShare X))) := by
  have h0 := finds0_0 m c t (Y 0) (hY 0)
  have h1 := finds0_1 m c t (Y 1) (hY 1)
  have h2 := finds0_2 m c t (Y 2) (hY 2)
  have h3 := finds0_3 m c t (Y 3) (hY 3)
  have h4 := finds0_4 m c t (Y 4) (hY 4)
  have h5 := finds0_5 m c t (Y 5) (hY 5)
  rw [h0, h1, h2, h3, h4, h5]
  rw [show (rd m c).owesAt () t.succ = (rd m c).owesAt () t.castSucc from rfl]
  rw [Phi_castSucc, Phi_succ, PhiS_succ]
  have hN : t.val < 50 := lt_of_lt_of_eq t.isLt (show cfg0.N = 50 from N_0)
  unfold bodyAt0
  by_cases hlt : t.val < 25
  · by_cases hz : t.val = 0
    · -- point 0: S1 is computed and the first stripe of S2 stored
      have HC0 : cond0_0 (grid0.coords t) := (hcond0_0 t).mpr (by rw [hz])
      have HC1 : cond0_1 (grid0.coords t) := (hcond0_1 t).mpr hlt
      have HC2 : ¬cond0_2 (grid0.coords t) := fun h => absurd ((hcond0_2 t).mp h) (by omega)
      have ht0 : t = pt 0 (Nat.succ_pos 49) := Fin.ext hz
      rw [PhiS_zero m c _ _ hz, PhiA0_eq]
      iintro ⟨⟨⟨HS0, ⟨%d1, HS1⟩⟩, Hg⟩, Ho, H0, H1, H2, H3, H4, H5, H6⟩
      iapply ((kernelRun0_A c (grid0.coords t) _ _ _ _ _ _ _ _ _ _ _ _ _ _ _ _ _ _ HC0 HC1 HC2 (iblk m c 0 t) (iblk m c 1 t) (iblk m c 2 t) (iblk m c 3 t) (iblk m c 4 t) (iblk m c 5 t) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, ⟨%f8, HS0⟩, HS1⟩
      isplitl [HS0 HS1 Hg]
      · isplitl [HS0 HS1]
        · isplitl [HS0]
          · unfold owns; iexists _; isplitr; swap; · iexact HS0
            ipureintro
            rw [piecesA_S1, read_store_whole _ _ hzero2]
            subst ht0; rfl
          · iexists _; isplitr; swap
            · unfold owns; iexists _; isplitr; swap; · iexact HS1
              ipureintro; rfl
            · ipureintro
              rw [piecesA_S2]
              have e : k0_pay2 (iblk m c 0 t) (k0_pay1 (iblk m c 1 t) (iblk m c 2 t)) (iblk m c 3 t) (iblk m c 4 t) = S2blk m c t := by
                subst ht0; rfl
              rw [e]
              exact S2ok_store m c t hlt _ _ (fun h => absurd hz h) _
        · iexact Hg
      isplitl [Ho]; · iexact Ho
      isplitl [H0]
      · iexists _; isplitr; · ipureintro; exact after_in0 m c t _
        iexact H0
      isplitl [H1]
      · iexists _; isplitr; · ipureintro; exact after_in1 m c t _
        iexact H1
      isplitl [H2]
      · iexists _; isplitr; · ipureintro; exact after_in2 m c t _
        iexact H2
      isplitl [H3]
      · iexists _; isplitr; · ipureintro; exact after_in3 m c t _
        iexact H3
      isplitl [H4]
      · iexists _; isplitr; · ipureintro; exact after_in4 m c t _
        iexact H4
      isplitl [H5]
      · iexists _; isplitr; · ipureintro; exact after_in5 m c t _
        iexact H5
      iexists _; isplitr; swap; · iexact H6
      ipureintro; rw [after_out]; intro h; omega
    · -- points 1‥24: one more stripe of S2
      have HC0 : ¬cond0_0 (grid0.coords t) := fun h => absurd ((hcond0_0 t).mp h) (by omega)
      have HC1 : cond0_1 (grid0.coords t) := (hcond0_1 t).mpr hlt
      have HC2 : ¬cond0_2 (grid0.coords t) := fun h => absurd ((hcond0_2 t).mp h) (by omega)
      rw [PhiS_pos m c _ _ hz]
      iintro ⟨⟨⟨HS0, ⟨%d1, %hd1, HS1⟩⟩, Hg⟩, Ho, H0, H1, H2, H3, H4, H5, H6⟩
      iapply ((kernelRun0_B c (grid0.coords t) _ _ _ _ _ _ _ _ _ _ _ _ _ _ _ _ _ _ HC0 HC1 HC2 (iblk m c 0 t) (iblk m c 1 t) (iblk m c 2 t) (iblk m c 3 t) (iblk m c 4 t) (iblk m c 5 t) (S1val m c) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, HS0, HS1⟩
      isplitl [HS0 HS1 Hg]
      · isplitl [HS0 HS1]
        · isplitl [HS0]
          · iexact HS0
          · iexists _; isplitr; swap
            · unfold owns; iexists _; isplitr; swap; · iexact HS1
              ipureintro; rfl
            · ipureintro
              rw [piecesB_S2]
              exact S2ok_store m c t hlt _ _ (fun _ => by rw [Memref.IsWhole.read_unread]; exact hd1) _
        · iexact Hg
      isplitl [Ho]; · iexact Ho
      isplitl [H0]
      · iexists _; isplitr; · ipureintro; exact after_in0 m c t _
        iexact H0
      isplitl [H1]
      · iexists _; isplitr; · ipureintro; exact after_in1 m c t _
        iexact H1
      isplitl [H2]
      · iexists _; isplitr; · ipureintro; exact after_in2 m c t _
        iexact H2
      isplitl [H3]
      · iexists _; isplitr; · ipureintro; exact after_in3 m c t _
        iexact H3
      isplitl [H4]
      · iexists _; isplitr; · ipureintro; exact after_in4 m c t _
        iexact H4
      isplitl [H5]
      · iexists _; isplitr; · ipureintro; exact after_in5 m c t _
        iexact H5
      iexists _; isplitr; swap; · iexact H6
      ipureintro; rw [after_out]; intro h; omega
  · -- points 25‥49: one stripe of the output
    have hz : t.val ≠ 0 := by omega
    have HC0 : ¬cond0_0 (grid0.coords t) := fun h => absurd ((hcond0_0 t).mp h) (by omega)
    have HC1 : ¬cond0_1 (grid0.coords t) := fun h => absurd ((hcond0_1 t).mp h) hlt
    have HC2 : cond0_2 (grid0.coords t) := (hcond0_2 t).mpr (by omega)
    rw [PhiS_pos m c _ _ hz]
    iintro ⟨⟨⟨HS0, ⟨%d1, %hd1, HS1⟩⟩, Hg⟩, Ho, H0, H1, H2, H3, H4, H5, H6⟩
    obtain rfl : d1 = S2full m c := S2ok_full m c (t.val - 1) (by omega) d1 hd1
    iapply ((kernelRun0_C c (grid0.coords t) _ _ _ _ _ _ _ _ _ _ _ _ _ _ _ _ _ _ HC0 HC1 HC2 (iblk m c 0 t) (iblk m c 1 t) (iblk m c 2 t) (iblk m c 3 t) (iblk m c 4 t) (iblk m c 5 t) (S1val m c) (S2full m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, HS0, HS1⟩
    isplitl [HS0 HS1 Hg]
    · isplitl [HS0 HS1]
      · isplitl [HS0]
        · iexact HS0
        · iexists _; isplitr; swap; · iexact HS1
          ipureintro; exact S2ok_mono m c (n := t.val - 1) (by omega) _ hd1
      · iexact Hg
    isplitl [Ho]; · iexact Ho
    isplitl [H0]
    · iexists _; isplitr; · ipureintro; exact after_in0 m c t _
      iexact H0
    isplitl [H1]
    · iexists _; isplitr; · ipureintro; exact after_in1 m c t _
      iexact H1
    isplitl [H2]
    · iexists _; isplitr; · ipureintro; exact after_in2 m c t _
      iexact H2
    isplitl [H3]
    · iexists _; isplitr; · ipureintro; exact after_in3 m c t _
      iexact H3
    isplitl [H4]
    · iexists _; isplitr; · ipureintro; exact after_in4 m c t _
      iexact H4
    isplitl [H5]
    · iexists _; isplitr; · ipureintro; exact after_in5 m c t _
      iexact H5
    iexists _; isplitr; swap
    · unfold owns; iexists _; isplitr; swap; · iexact H6
      ipureintro; rfl
    · ipureintro; rw [after_out]; intro _
      exact outC_eq c (grid0.coords t) _ _ _ _ _ _ _ _ _ _ _ _ _ _ _ _ _ _ HC0 HC1 HC2 (iblk m c 0 t) (iblk m c 1 t) (iblk m c 2 t) (iblk m c 3 t) (iblk m c 4 t) (iblk m c 5 t) (S1val m c) (S2full m c) f6

/-- The library's body obligation, of the relational data. -/
theorem body_obligation (c : Dev nD) : (rd (F := F) m c).BodyObligation (defs₀ (F := F)) Variants.none () Set.univ := fun t Y hY => by
  rw [bigSep_W0, bigSep_W0]
  exact sound_body m c t Y hY

end Cert.Kernel.Hand

end
-- ==== Proof.K.Launch.lean ====
/-
  The launch. The relational proof data meet the library's frame run: the body obligation holds at every point, the
  data lend whole shares and owe nothing, the class invariant is the data's invariant before point 0 and is given back
  after point 49 (the named contents of the two scratch buffers are forgotten). So every weakly fair execution of @main
  terminates without a fault; every input array ends unchanged, the output array ends at contents the data allow, and
  every other unscoped buffer ends at its region-entry contents. The frame claim's post is read off that.
-/
import proofs.«131214_g16277926052538_cont_week2b_966_6_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (rd m c).Φ 0 := by
  rw [show (rd m c).Φ 0 = PhiS m c 0 (Nat.zero_le _) from rfl, PhiS_zero m c 0 _ rfl]
  try exact Idealize.SL.BI.Entails.refl _

/-- After the last point the invariant gives the class's back: what the scratch buffers hold is forgotten. -/
theorem hout (c : Dev nD) : (rd m c).Φ (Fin.last cfg0.N) ⊢ Pipeline.ΦA spec0 c := by
  rw [show (rd m c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA0_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- From any memory with zero counters, for any values: every weakly fair execution of @main on the TensorCores
    terminates, and every final state has every input array unchanged, the output array at contents the relational data
    allow after every write-back, and every other unscoped buffer at its region-entry contents. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := rd_A m) (hin := hin m) (hout := hout m)

/-- THE FRAME: the program runs, nothing faults, and its six argument arrays end unchanged — at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_r m ρ (fun c => rd m c) (rd_A m) (run_main m ρ)

end Cert.Kernel.Hand

end
-- ==== Proof.KI.Shared.lean ====
/-
  What the three runs of the kernel body and the proof data share. The grid has fifty points. The body has three
  conditionals on the grid coordinate: the first holds at point 0 only (the product x·W1 is computed once), the second
  at points 0‥24 (one stripe of four hundred rows of the hidden layer's product with W2 is stored per point), the third
  at points 25‥49 (one stripe of the output is stored per point). Their printed word-level conditions are put in closed
  form here, decided over the grid; the staging memrefs the pipeline passes at a point and the two scratch buffers are
  named; the class invariant is restated over the scratch memrefs; and the frame claim's post is read off a run to the
  relational frame post.
-/
import proofs.«131214_g16277926052538_cont_week2b_966_6_alg».proof.Proof.Gen.KernelIdeal.Frame
import proofs.«131214_g16277926052538_cont_week2b_966_6_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three conditions, in closed form over the grid -/

/-- The first conditional's condition: the grid coordinate equals zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The second conditional's condition: the grid coordinate is below 25. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- The third conditional's condition: the grid coordinate is at least 25. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- The row offset of the stripe stored at a point of the second conditional: four hundred times the coordinate. -/
theorem hoff1 : ∀ t : Fin cfg0.N, t.val < 25 → k0_off1 (grid0.coords t) = ![400 * t.val, 0] :=
  (by decide +kernel : ∀ t : Fin grid0.N, t.val < 25 → k0_off1 (grid0.coords t) = ![400 * t.val, 0])

/-! ## The input windows are never idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x32 .f32 := win0_6.stage (cfg0.slots t 6)
abbrev hs0_6 (t : Fin cfg0.N) : (ms0_6 t).IsWhole := hstage0_6 ((cfg0.slots t 6).cast nbuf0_6)
/-- The two scratch operands: whole scoped buffers of the kernel's own. -/
abbrev scM0_0 : Memref sig .tc .vmem S10000x64 .f32 := Memref.whole cc0_scratch0
abbrev scM0_1 : Memref sig .tc .vmem S10000x32 .f32 := Memref.whole cc0_scratch1

/-- The class invariant, over the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The frame claim's post from a run to the relational frame post -/

/-- For relational proof data whose arrays are the region-entry contents, a run to the relational frame post, read at
    the argument arrays (a staged input keeps its entry contents; an array no window stages is in the post's second
    clause), is the frame claim's post. -/
theorem frame_of_r (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((hA c 1).trans (V_main_arg0 m c)),
      (Pipeline.RDat.FramePost.arr_in h c 0 rfl).trans ((hA c 0).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

end Cert.KernelIdeal.Hand

end
-- ==== Proof.KI.Defs.lean ====
/-
  The values the fused two-layer network passes from grid point to grid point, and the pipeline's proof data.
  Point 0 stores S1 = x·W1 whole into the first scratch buffer. Point t < 25 stores, into rows [400 t, 400 t + 400)
  of the second scratch buffer, the stripe  max(adj_t · S1 + b1, 0) · W2  where adj_t is the t-th stripe of four hundred
  rows of adj; after point 24 that buffer holds the whole S2. Point t ≥ 25 stores the output stripe  adj_(49−t) · S2 + b2
  into the output window's staging buffer, which is written back after the body. At points below 25 the body stores
  nothing into the output's staging buffer, and the write-back after point 24 moves whatever it holds into block 0 of the
  output array; block 0 is written again, last, after point 49. So the proof data name what the body leaves in the output
  buffer only from point 25 on: the window's relation says nothing before.
-/
import proofs.«131214_g16277926052538_cont_week2b_966_6_alg».proof.Proof.KI.Shared
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `n` of the grid. -/
abbrev pt (n : ℕ) (h : n < 50) : Fin cfg0.N := ⟨n, lt_of_lt_of_eq h (show (50 : ℕ) = cfg0.N from N_0.symm)⟩

/-- S1 = x·W1, from the two resident blocks (fetched at point 0 and never moved). -/
def S1val (c : Dev nD) : Vec F S10000x64 .f32 :=
  k0_pay1 (iblk m c 1 (pt 0 (by omega))) (iblk m c 2 (pt 0 (by omega)))

/-- The stripe of S2 that point `t` stores: max(adj_t·S1 + b1, 0)·W2. -/
def S2blk (c : Dev nD) (t : Fin cfg0.N) : Vec F S400x32 .f32 :=
  k0_pay2 (iblk m c 0 t) (S1val m c) (iblk m c 3 t) (iblk m c 4 t)

/-- S2 whole: row r belongs to the stripe of point r / 400, at row r % 400 of it. -/
def S2full (c : Dev nD) : Vec F S10000x32 .f32 := fun i =>
  S2blk m c (pt ((i 0).val / 400) (by have := ValueIdx.idx2_lt0 i; omega))
    (ValueIdx.ix2 (⟨(i 0).val % 400, Nat.mod_lt _ (by omega)⟩ : Fin 400) (⟨(i 1).val, ValueIdx.idx2_lt1 i⟩ : Fin 32))

/-- The output stripe point `t` (from 25 on) stores: adj_t·S2 + b2, adj_t the stripe the point has staged. -/
def outBlk (c : Dev nD) (t : Fin cfg0.N) : Vec F S400x32 .f32 :=
  k0_pay3 (iblk m c 0 t) (S2full m c) (iblk m c 5 t)

/-- What the second scratch buffer holds after point `n`: its rows below 400 (n + 1) are S2's. -/
def S2ok (c : Dev nD) (n : ℕ) (d : Vec F S10000x32 .f32) : Prop :=
  ∀ i : S10000x32.Idx, (i 0).val < 400 * (n + 1) → d i = S2full m c i

/-- Once every stripe is stored the buffer holds S2. -/
theorem S2ok_full (c : Dev nD) (n : ℕ) (hn : 24 ≤ n) (d : Vec F S10000x32 .f32) (h : S2ok m c n d) : d = S2full m c :=
  funext fun i => h i (by have := ValueIdx.idx2_lt0 i; omega)

theorem S2ok_mono (c : Dev nD) {n n' : ℕ} (hn : 24 ≤ n) (d : Vec F S10000x32 .f32) (h : S2ok m c n d) : S2ok m c n' d :=
  fun i _ => h i (by have := ValueIdx.idx2_lt0 i; omega)

/-- The invariant between points: before point 0 the class's (both scratch buffers at anything); after point `n` the
    first scratch buffer at S1, the second with its rows below 400 (n + 1) at S2's, the generator register at some state. -/
def PhiS (c : Dev nD) : (n : ℕ) → n ≤ cfg0.N → sProp 𝕄
  | 0, _ => Pipeline.ΦA spec0 c
  | n + 1, _ => iprop(iprop(owns (c : Thread nD τ) scM0_0 fullShare (S1val m c) ∗ (∃ d, ⌜S2ok m c n d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (S1val m c) ∗ (∃ d, ⌜S2ok m c n d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (S1val m c) ∗ (∃ d, ⌜S2ok m c (n - 1) d⌝ ∗ owns (c : Thread nD τ) scM0_1 fullShare d)) ∗ (∃ r, prngReg c r)) := by
  cases n with
  | zero => exact absurd rfl hz
  | succ n => rfl

/-- The proof data in exact form: every input's buffer at its block; the output's at the stripe the point stores (read
    only from point 25 on, through the relation below). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

/-- The output window's relation: from point 25 on the body leaves the point's output stripe; before, anything. -/
def R6 (c : Dev nD) : Fin cfg0.N → (Y X : Vec F S400x32 .f32) → Prop :=
  fun t _ X => 25 ≤ t.val → X = outBlk m c t

/-- Which windows' relations are replaced: the output's only. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => none
    | ⟨4, _⟩ => none
    | ⟨5, _⟩ => none
    | ⟨6, _⟩ => some (R6 m c)

/-- THE PROOF DATA: the exact data read relationally, the output window's relation replaced by `R6`. -/
def rd (c : Dev nD) : RDat τ (Elt F) Unit ℕ (UR sig nD τ) ℕ cfg0 c := (dat m c).toR.override (ovr m c)

theorem rd_A (c : Dev nD) (w : Fin cfg0.W) : (rd m c).A w = V m c (Pipeline.arrRef spec0 w) := rfl

theorem dat_A (c : Dev nD) (w : Fin cfg0.W) : (dat m c).A w = V m c (Pipeline.arrRef spec0 w) := by
  dsimp only [dat]

theorem rd_Phi (c : Dev nD) (t : Fin (cfg0.N + 1)) : (rd m c).Φ t = PhiS m c t.val (Nat.le_of_lt_succ t.isLt) := rfl

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem after0_5 (c : Dev nD) (t : Fin cfg0.N) : (dat m c).after 5 t = iblk m c 5 t := by dsimp only [dat]

/-- What the body may find in an input's buffer is the input's block at the point. -/
theorem finds0_0 (c : Dev nD) (t : Fin cfg0.N) (Y) (h : (rd m c).Finds 0 t Y) : Y = iblk m c 0 t := by
  obtain ⟨d, rfl⟩ := (dat m c).toR_finds 0 t Y (((dat m c).toR.override_finds (ovr := ovr m c) rfl t Y).mp h)
  exact before0_0_of m (dat m c) (dat_A m c 0) (after0_0 m c) t d
theorem finds0_1 (c : Dev nD) (t : Fin cfg0.N) (Y) (h : (rd m c).Finds 1 t Y) : Y = iblk m c 1 t := by
  obtain ⟨d, rfl⟩ := (dat m c).toR_finds 1 t Y (((dat m c).toR.override_finds (ovr := ovr m c) rfl t Y).mp h)
  exact before0_1_of m (dat m c) (dat_A m c 1) (after0_1 m c) t d
theorem finds0_2 (c : Dev nD) (t : Fin cfg0.N) (Y) (h : (rd m c).Finds 2 t Y) : Y = iblk m c 2 t := by
  obtain ⟨d, rfl⟩ := (dat m c).toR_finds 2 t Y (((dat m c).toR.override_finds (ovr := ovr m c) rfl t Y).mp h)
  exact before0_2_of m (dat m c) (dat_A m c 2) (after0_2 m c) t d
theorem finds0_3 (c : Dev nD) (t : Fin cfg0.N) (Y) (h : (rd m c).Finds 3 t Y) : Y = iblk m c 3 t := by
  obtain ⟨d, rfl⟩ := (dat m c).toR_finds 3 t Y (((dat m c).toR.override_finds (ovr := ovr m c) rfl t Y).mp h)
  exact before0_3_of m (dat m c) (dat_A m c 3) (after0_3 m c) t d
theorem finds0_4 (c : Dev nD) (t : Fin cfg0.N) (Y) (h : (rd m c).Finds 4 t Y) : Y = iblk m c 4 t := by
  obtain ⟨d, rfl⟩ := (dat m c).toR_finds 4 t Y (((dat m c).toR.override_finds (ovr := ovr m c) rfl t Y).mp h)
  exact before0_4_of m (dat m c) (dat_A m c 4) (after0_4 m c) t d
theorem finds0_5 (c : Dev nD) (t : Fin cfg0.N) (Y) (h : (rd m c).Finds 5 t Y) : Y = iblk m c 5 t := by
  obtain ⟨d, rfl⟩ := (dat m c).toR_finds 5 t Y (((dat m c).toR.override_finds (ovr := ovr m c) rfl t Y).mp h)
  exact before0_5_of m (dat m c) (dat_A m c 5) (after0_5 m c) t d

/-- What the relation asks of an input's buffer after the body: its block, as the body found it. -/
theorem after_in0 (c : Dev nD) (t : Fin cfg0.N) (Y) : (rd m c).after 0 t Y (iblk m c 0 t) := by
  rw [show (rd m c).after 0 = (dat m c).toR.after 0 from (dat m c).toR.override_after_of_eq_none rfl]
  show (dat m c).Leaves 0 t _
  rw [Dat.Leaves.live_iff _ (.inl (liveAt0_0 t))]; exact (after0_0 m c t).symm
theorem after_in1 (c : Dev nD) (t : Fin cfg0.N) (Y) : (rd m c).after 1 t Y (iblk m c 1 t) := by
  rw [show (rd m c).after 1 = (dat m c).toR.after 1 from (dat m c).toR.override_after_of_eq_none rfl]
  show (dat m c).Leaves 1 t _
  rw [Dat.Leaves.live_iff _ (.inl (liveAt0_1 t))]; exact (after0_1 m c t).symm
theorem after_in2 (c : Dev nD) (t : Fin cfg0.N) (Y) : (rd m c).after 2 t Y (iblk m c 2 t) := by
  rw [show (rd m c).after 2 = (dat m c).toR.after 2 from (dat m c).toR.override_after_of_eq_none rfl]
  show (dat m c).Leaves 2 t _
  rw [Dat.Leaves.live_iff _ (.inl (liveAt0_2 t))]; exact (after0_2 m c t).symm
theorem after_in3 (c : Dev nD) (t : Fin cfg0.N) (Y) : (rd m c).after 3 t Y (iblk m c 3 t) := by
  rw [show (rd m c).after 3 = (dat m c).toR.after 3 from (dat m c).toR.override_after_of_eq_none rfl]
  show (dat m c).Leaves 3 t _
  rw [Dat.Leaves.live_iff _ (.inl (liveAt0_3 t))]; exact (after0_3 m c t).symm
theorem after_in4 (c : Dev nD) (t : Fin cfg0.N) (Y) : (rd m c).after 4 t Y (iblk m c 4 t) := by
  rw [show (rd m c).after 4 = (dat m c).toR.after 4 from (dat m c).toR.override_after_of_eq_none rfl]
  show (dat m c).Leaves 4 t _
  rw [Dat.Leaves.live_iff _ (.inl (liveAt0_4 t))]; exact (after0_4 m c t).symm
theorem after_in5 (c : Dev nD) (t : Fin cfg0.N) (Y) : (rd m c).after 5 t Y (iblk m c 5 t) := by
  rw [show (rd m c).after 5 = (dat m c).toR.after 5 from (dat m c).toR.override_after_of_eq_none rfl]
  show (dat m c).Leaves 5 t _
  rw [Dat.Leaves.live_iff _ (.inl (liveAt0_5 t))]; exact (after0_5 m c t).symm

/-- The output window's relation, opened. -/
theorem after_out (c : Dev nD) (t : Fin cfg0.N) (Y X) : (rd m c).after 6 t Y X ↔ (25 ≤ t.val → X = outBlk m c t) := by
  rw [show (rd m c).after 6 = R6 m c from (dat m c).toR.override_after_of_eq_some rfl]
  exact Iff.rfl

/-- What the body may leave in the output's buffer from point 25 on is the point's output stripe. -/
theorem leaves_out (c : Dev nD) (t : Fin cfg0.N) (X) (h : (rd m c).Leaves 6 t X) (ht : 25 ≤ t.val) : X = outBlk m c t := by
  obtain ⟨Y, -, hY⟩ := h
  exact (after_out m c t Y X).mp hY ht

end Cert.KernelIdeal.Hand

end
-- ==== Proof.KI.Steps.lean ====
/-
  What the body's stores into the two scratch buffers mean for the values carried between grid points, apart from any
  separation logic. A store through the whole-buffer rectangle leaves its payload. A store of four hundred rows at row
  offset 400 t into the second scratch buffer changes exactly the rows [400 t, 400 t + 400): if the rows below 400 t held
  S2's rows, the rows below 400 (t + 1) now do.
-/
import proofs.«131214_g16277926052538_cont_week2b_966_6_alg».proof.Proof.KI.Defs
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-shape offsets are zero, however spelt. -/
theorem hzero2 : (![0, 0] : Fin 2 → Nat) = fun _ => 0 := funext fun a => by fin_cases a <;> rfl

/-- One store through the whole-buffer rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The stripe stored at point `t < 25`: afterwards the second scratch buffer's rows below 400 (t + 1) are S2's, if
    before the store its rows below 400 t were (nothing is asked at point 0). -/
theorem S2ok_store (c : Dev nD) (t : Fin cfg0.N) (ht : t.val < 25) {κ : Kind} {sp : Space} (v : View sig κ sp S10000x32 .f32)
    (fv : v.ty.Contents (Elt F)) (hprev : t.val ≠ 0 → S2ok m c (t.val - 1) (v.read (Elt F) fv))
    (inb : ∀ a, (k0_off1 (grid0.coords t)) a + S400x32.size a ≤ S10000x32.size a) :
    S2ok m c t.val (v.read (Elt F) (v.writes (Elt F) fv
      [(⟨Rect.unit (s := S10000x32) (k0_off1 (grid0.coords t)) S400x32.size inb, S2blk m c t⟩ : View.Piece (Elt F) S10000x32 .f32)])) := by
  intro i hi
  have hoff := hoff1 t ht
  have hi0 := ValueIdx.idx2_lt0 i
  have hi1 := ValueIdx.idx2_lt1 i
  by_cases hin : 400 * t.val ≤ (i 0).val
  · -- a row of the stripe just stored
    have hlt : (i 0).val - 400 * t.val < 400 := by omega
    rw [View.read_writes_cons_rows_of_mem (d := ![10000, 32]) v fv inb (S2blk m c t) [] i
      (ValueIdx.ix2 (⟨(i 0).val - 400 * t.val, hlt⟩ : Fin 400) (⟨(i 1).val, hi1⟩ : Fin 32)) hoff
      (by show (i 0).val = 400 * t.val + ((i 0).val - 400 * t.val); omega) rfl]
    unfold S2full
    have e1 : pt ((i 0).val / 400) (by omega) = t := Fin.ext (by
      show (i 0).val / 400 = t.val
      exact Nat.div_eq_of_lt_le (by omega) (by omega))
    have e2 : (i 0).val % 400 = (i 0).val - 400 * t.val := by
      have := Nat.div_add_mod (i 0).val 400
      have e : (i 0).val / 400 = t.val := Nat.div_eq_of_lt_le (by omega) (by omega)
      rw [e] at this; omega
    rw [e1]
    exact congrArg (S2blk m c t) (congrArg (fun a : Fin 400 => ValueIdx.ix2 a (⟨(i 1).val, hi1⟩ : Fin 32)) (Fin.ext e2.symm))
  · -- a row below the stripe: untouched, and it was S2's already
    have hne : t.val ≠ 0 := by omega
    rw [View.read_writes_cons_rows_of_not_mem (d := ![10000, 32]) (W := 400) v fv inb (S2blk m c t) [] i hoff rfl (Or.inl (by omega)),
      View.writes_nil]
    exact hprev hne i (by omega)

end Cert.KernelIdeal.Hand

end
-- ==== Proof.KI.RunA.lean ====
/-
  The kernel body at the first grid point: the first and the second conditional are taken. The body loads x and W1
  and stores their product S1 over the whole first scratch buffer; then it loads the staged stripe of adj, reads S1 back,
  loads b1 and W2, and stores max(adj_0·S1 + b1, 0)·W2 into the first four hundred rows of the second scratch buffer.
  The run is made by the symbolic executor on whole memrefs; the pieces the two scratch buffers end with are the witness
  it finds.
-/
import proofs.«131214_g16277926052538_cont_week2b_966_6_alg».proof.Proof.KI.Shared
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A. On whole memrefs — the inputs at their contents, the output buffer and the first scratch buffer at
    anything, the second scratch buffer at named contents — the body runs to the continuation holding the inputs and the
    output buffer at something as they were, the first scratch buffer with the pieces `LS.1` written and the second at
    its former contents with the pieces `LS.2` written. -/
noncomputable def kernelRun0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs1 : Vec F S10000x32 .f32) :
    { LS : List (View.Piece (Elt F) S10000x64 .f32) × List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ f, arg8.view.loc (c : Thread nD τ) ↦[arg8.view.set]{fullShare} arg8.view.writes (Elt F) f LS.1) ∗ (arg9.view.loc (c : Thread nD τ) ↦[arg9.view.set]{fullShare} arg9.view.writes (Elt F) (harg9.unread xs1) LS.2)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨(?_, ?_), fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]; · iexists _; iexact HS0
    iexact HS1

/-- The whole-shape offsets are zero, however spelt. -/
theorem hz2 : (![0, 0] : Fin 2 → Nat) = fun _ => 0 := funext fun a => by fin_cases a <;> rfl

/-- Case A's pieces for the first scratch buffer: one store of x·W1 over the whole buffer. -/
theorem piecesA_S1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs1 : Vec F S10000x32 .f32) :
    (kernelRun0_A c i arg1 harg1 arg2 harg2 arg3 harg3 arg4 harg4 arg5 harg5 arg6 harg6 arg7 harg7 arg8 harg8 arg9 harg9 hc0 hc1 hc2 x0 x1 x2 x3 x4 x5 xs1).1.1
      = [(⟨Rect.unit (s := S10000x64) ![0, 0] S10000x64.size inb_S10000x64_S10000x64_0_0, k0_pay1 x1 x2⟩ : View.Piece (Elt F) S10000x64 .f32)] := by
  unfold kernelRun0_A; dsimp only; sl_unfold_words
  simp only [View.readAt_eq_ld, harg2.read_unread, harg3.read_unread, View.ld_unit_zero (S := S10000x128) hz2, View.ld_unit_zero (S := S128x64) hz2]

/-- Case A's pieces for the second scratch buffer: one store, into the four hundred rows at the coordinate's offset, of
    the stripe computed from the staged block of adj, the product just stored (read back), b1 and W2. -/
theorem piecesA_S2 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs1 : Vec F S10000x32 .f32) :
    (kernelRun0_A c i arg1 harg1 arg2 harg2 arg3 harg3 arg4 harg4 arg5 harg5 arg6 harg6 arg7 harg7 arg8 harg8 arg9 harg9 hc0 hc1 hc2 x0 x1 x2 x3 x4 x5 xs1).1.2
      = [(⟨Rect.unit (s := S10000x32) (k0_off1 i) S400x32.size (k0_off1_inb i hc1), k0_pay2 x0 (k0_pay1 x1 x2) x3 x4⟩ : View.Piece (Elt F) S10000x32 .f32)] := by
  unfold kernelRun0_A; dsimp only; sl_unfold_words
  simp only [View.readAt_eq_ld, harg1.read_unread, harg2.read_unread, harg3.read_unread, harg4.read_unread, harg5.read_unread,
    View.ld_unit_zero (S := S400x10000) hz2, View.ld_unit_zero (S := S10000x128) hz2, View.ld_unit_zero (S := S128x64) hz2,
    View.ld_unit_zero (S := S1x64) hz2, View.ld_unit_zero (S := S64x32) hz2, View.readCov_unit_zero (S := S10000x64) _ hz2]

end Cert.KernelIdeal.Hand

end
-- ==== Proof.KI.RunB.lean ====
/-
  The kernel body at a point of the first phase after the first (grid coordinate 1‥24): only the second conditional is
  taken. The body loads the staged stripe of adj, the whole first scratch buffer (S1), b1 and W2, and stores
  max(adj_t·S1 + b1, 0)·W2 into four hundred rows of the second scratch buffer, at the row offset the coordinate
  gives. The run is made by the symbolic executor on whole memrefs; the pieces the second scratch buffer ends with are
  the witness it finds.
-/
import proofs.«131214_g16277926052538_cont_week2b_966_6_alg».proof.Proof.KI.Shared
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B. On whole memrefs — the inputs at their contents, the output buffer at anything, the two scratch buffers at
    named contents — the body runs to the continuation holding the inputs, the output buffer at something and the first
    scratch buffer as they were, and the second scratch buffer at its former contents with the pieces `LS` written. -/
noncomputable def kernelRun0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) :
    { LS : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (arg9.view.loc (c : Thread nD τ) ↦[arg9.view.set]{fullShare} arg9.view.writes (Elt F) (harg9.unread xs1) LS)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]
    · iexists _; isplitr; · ipureintro; exact harg8.read_unread _
      iexact HS0
    iexact HS1

/-- Case B's pieces for the second scratch buffer: one store, into the four hundred rows at the coordinate's offset, of
    the stripe computed from the staged block of adj, the first scratch buffer's contents, b1 and W2. -/
theorem piecesB_S2 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : cond0_1 i) (hc2 : ¬cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) :
    (kernelRun0_B c i arg1 harg1 arg2 harg2 arg3 harg3 arg4 harg4 arg5 harg5 arg6 harg6 arg7 harg7 arg8 harg8 arg9 harg9 hc0 hc1 hc2 x0 x1 x2 x3 x4 x5 xs0 xs1).1
      = [(⟨Rect.unit (s := S10000x32) (k0_off1 i) S400x32.size (k0_off1_inb i hc1), k0_pay2 x0 xs0 x3 x4⟩ : View.Piece (Elt F) S10000x32 .f32)] := by
  have hz2 : (![0, 0] : Fin 2 → Nat) = fun _ => 0 := funext fun a => by fin_cases a <;> rfl
  unfold kernelRun0_B; dsimp only; sl_unfold_words
  simp only [View.readAt_eq_ld, harg1.read_unread, harg4.read_unread, harg5.read_unread, harg8.read_unread,
    View.ld_unit_zero (S := S400x10000) hz2, View.ld_unit_zero (S := S10000x64) hz2,
    View.ld_unit_zero (S := S1x64) hz2, View.ld_unit_zero (S := S64x32) hz2]

end Cert.KernelIdeal.Hand

end
-- ==== Proof.KI.RunC.lean ====
/-
  The kernel body at a point of the third phase (grid coordinate at least 25): only the third conditional is taken.
  The body loads the staged stripe of adj, the whole second scratch buffer (S2) and b2, and stores their product plus
  b2 over the whole output staging buffer. The run is made by the symbolic executor on whole memrefs; the pieces the
  output buffer ends with are the witness it finds.
-/
import proofs.«131214_g16277926052538_cont_week2b_966_6_alg».proof.Proof.KI.Shared
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C. On whole memrefs — the inputs at their contents, the output buffer at anything, the two scratch buffers at
    named contents — the body runs to the continuation holding the inputs and both scratch buffers as they were and the
    output buffer with the pieces `LO` written. -/
noncomputable def kernelRun0_C (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) :
    { LO : List (View.Piece (Elt F) S400x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xs0 ∗ owns (c : Thread nD τ) arg9 fullShare xs1) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    iexists _; isplitr; · ipureintro; exact harg9.read_unread _
    iexact HS1

/-- Case C's pieces cover the output staging buffer: one store of the whole block. -/
theorem coverC (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) (y : S400x32.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 hc2 x0 x1 x2 x3 x4 x5 xs0 xs1).1 S400x32.size (by sl_kernel_rfl) y

/-- What case C leaves in the output staging buffer, whatever it held: the stripe's product with the second scratch
    buffer's contents, plus the bias row. -/
theorem outC_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S400x32 .f32) (harg7 : arg7.IsWhole) (arg8 : Memref sig .tc .vmem S10000x64 .f32) (harg8 : arg8.IsWhole) (arg9 : Memref sig .tc .vmem S10000x32 .f32) (harg9 : arg9.IsWhole) (hc0 : ¬cond0_0 i) (hc1 : ¬cond0_1 i) (hc2 : cond0_2 i)
    (x0 : Vec F S400x10000 .f32) (x1 : Vec F S10000x128 .f32) (x2 : Vec F S128x64 .f32) (x3 : Vec F S1x64 .f32) (x4 : Vec F S64x32 .f32) (x5 : Vec F S1x32 .f32) (xs0 : Vec F S10000x64 .f32) (xs1 : Vec F S10000x32 .f32) (f : arg7.view.ty.Contents (Elt F)) :
    arg7.view.read (Elt F) (arg7.view.writes (Elt F) f (kernelRun0_C c i arg1 harg1 arg2 harg2 arg3 harg3 arg4 harg4 arg5 harg5 arg6 harg6 arg7 harg7 arg8 harg8 arg9 harg9 hc0 hc1 hc2 x0 x1 x2 x3 x4 x5 xs0 xs1).1) = k0_pay3 x0 xs1 x5 := by
  rw [View.read_writes_eq_canon _ _ _ (coverC c i arg1 harg1 arg2 harg2 arg3 harg3 arg4 harg4 arg5 harg5 arg6 harg6 arg7 harg7 arg8 harg8 arg9 harg9 hc0 hc1 hc2 x0 x1 x2 x3 x4 x5 xs0 xs1)]
  unfold kernelRun0_C; dsimp only; sl_unfold_words
  have hz : (![0, 0] : Fin 2 → Nat) = fun _ => 0 := funext fun a => by fin_cases a <;> rfl
  rw [View.canon_unit_zero hz]
  simp only [View.readAt_eq_ld, harg1.read_unread, harg9.read_unread, harg6.read_unread, View.ld_unit_zero (S := S400x10000) hz, View.ld_unit_zero (S := S10000x32) hz, View.ld_unit_zero (S := S1x32) hz]

end Cert.KernelIdeal.Hand

end
-- ==== Proof.KI.Body.lean ====
/-
  The body obligation of the relational proof data, at every grid point. The point's case is read off its number: point 0
  (the first two conditionals taken), points 1‥24 (the second), points 25‥49 (the third). In each case the body's run on
  whole memrefs applies: the inputs' buffers hold their blocks; the invariant hands over the two scratch buffers — at
  anything before point 0, afterwards the first at S1 and the second with its rows below 400 t at S2's — and takes them
  back with the first at S1 and the second with its rows below 400 (t + 1) at S2's (from point 24 on: all of S2). The
  output's buffer comes back at something in the first two cases and at the point's output stripe in the third.
-/
import proofs.«131214_g16277926052538_cont_week2b_966_6_alg».proof.Proof.KI.Steps
import proofs.«131214_g16277926052538_cont_week2b_966_6_alg».proof.Proof.KI.RunA
import proofs.«131214_g16277926052538_cont_week2b_966_6_alg».proof.Proof.KI.RunB
import proofs.«131214_g16277926052538_cont_week2b_966_6_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (rd m c).Φ t.castSucc = PhiS m c t.val (Nat.le_of_lt t.isLt) := by
  rw [rd_Phi]; simp only [Fin.coe_castSucc]

theorem Phi_succ (c : Dev nD) (t : Fin cfg0.N) : (rd m c).Φ t.succ = PhiS m c (t.val + 1) t.isLt := rfl

set_option maxHeartbeats 9600000 in
/-- The body at any point, on what the pipeline hands it. -/
theorem sound_body (c : Dev nD) (t : Fin cfg0.N)
    (Y : (w : Fin cfg0.W) → (cfg0.win w).block.Idx → Elt F (cfg0.win w).elt) (hY : ∀ w, (rd m c).Finds w t (Y w)) :
    iprop((rd m c).Φ t.castSucc ∗ (rd m c).owesAt () t.castSucc
      ∗ owns (c : Thread nD τ) (ms0_0 t) fullShare (Y 0) ∗ owns (c : Thread nD τ) (ms0_1 t) fullShare (Y 1)
      ∗ owns (c : Thread nD τ) (ms0_2 t) fullShare (Y 2) ∗ owns (c : Thread nD τ) (ms0_3 t) fullShare (Y 3)
      ∗ owns (c : Thread nD τ) (ms0_4 t) fullShare (Y 4) ∗ owns (c : Thread nD τ) (ms0_5 t) fullShare (Y 5)
      ∗ owns (c : Thread nD τ) (ms0_6 t) fullShare (Y 6))
    ⊢ wp frame (wpE (defs₀ (F := F)) Variants.none c none) Set.univ (bodyAt0 t) (fun _ =>
      iprop((rd m c).Φ t.succ ∗ (rd m c).owesAt () t.succ
        ∗ (∃ X, ⌜(rd m c).after 0 t (Y 0) X⌝ ∗ owns (c : Thread nD τ) (ms0_0 t) fullShare X)
        ∗ (∃ X, ⌜(rd m c).after 1 t (Y 1) X⌝ ∗ owns (c : Thread nD τ) (ms0_1 t) fullShare X)
        ∗ (∃ X, ⌜(rd m c).after 2 t (Y 2) X⌝ ∗ owns (c : Thread nD τ) (ms0_2 t) fullShare X)
        ∗ (∃ X, ⌜(rd m c).after 3 t (Y 3) X⌝ ∗ owns (c : Thread nD τ) (ms0_3 t) fullShare X)
        ∗ (∃ X, ⌜(rd m c).after 4 t (Y 4) X⌝ ∗ owns (c : Thread nD τ) (ms0_4 t) fullShare X)
        ∗ (∃ X, ⌜(rd m c).after 5 t (Y 5) X⌝ ∗ owns (c : Thread nD τ) (ms0_5 t) fullShare X)
        ∗ (∃ X, ⌜(rd m c).after 6 t (Y 6) X⌝ ∗ owns (c : Thread nD τ) (ms0_6 t) fullShare X))) := by
  have h0 := finds0_0 m c t (Y 0) (hY 0)
  have h1 := finds0_1 m c t (Y 1) (hY 1)
  have h2 := finds0_2 m c t (Y 2) (hY 2)
  have h3 := finds0_3 m c t (Y 3) (hY 3)
  have h4 := finds0_4 m c t (Y 4) (hY 4)
  have h5 := finds0_5 m c t (Y 5) (hY 5)
  rw [h0, h1, h2, h3, h4, h5]
  rw [show (rd m c).owesAt () t.succ = (rd m c).owesAt () t.castSucc from rfl]
  rw [Phi_castSucc, Phi_succ, PhiS_succ]
  have hN : t.val < 50 := lt_of_lt_of_eq t.isLt (show cfg0.N = 50 from N_0)
  unfold bodyAt0
  by_cases hlt : t.val < 25
  · by_cases hz : t.val = 0
    · -- point 0: S1 is computed and the first stripe of S2 stored
      have HC0 : cond0_0 (grid0.coords t) := (hcond0_0 t).mpr (by rw [hz])
      have HC1 : cond0_1 (grid0.coords t) := (hcond0_1 t).mpr hlt
      have HC2 : ¬cond0_2 (grid0.coords t) := fun h => absurd ((hcond0_2 t).mp h) (by omega)
      have ht0 : t = pt 0 (Nat.succ_pos 49) := Fin.ext hz
      rw [PhiS_zero m c _ _ hz, PhiA0_eq]
      iintro ⟨⟨⟨HS0, ⟨%d1, HS1⟩⟩, Hg⟩, Ho, H0, H1, H2, H3, H4, H5, H6⟩
      iapply ((kernelRun0_A c (grid0.coords t) _ _ _ _ _ _ _ _ _ _ _ _ _ _ _ _ _ _ HC0 HC1 HC2 (iblk m c 0 t) (iblk m c 1 t) (iblk m c 2 t) (iblk m c 3 t) (iblk m c 4 t) (iblk m c 5 t) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, ⟨%f8, HS0⟩, HS1⟩
      isplitl [HS0 HS1 Hg]
      · isplitl [HS0 HS1]
        · isplitl [HS0]
          · unfold owns; iexists _; isplitr; swap; · iexact HS0
            ipureintro
            rw [piecesA_S1, read_store_whole _ _ hzero2]
            subst ht0; rfl
          · iexists _; isplitr; swap
            · unfold owns; iexists _; isplitr; swap; · iexact HS1
              ipureintro; rfl
            · ipureintro
              rw [piecesA_S2]
              have e : k0_pay2 (iblk m c 0 t) (k0_pay1 (iblk m c 1 t) (iblk m c 2 t)) (iblk m c 3 t) (iblk m c 4 t) = S2blk m c t := by
                subst ht0; rfl
              rw [e]
              exact S2ok_store m c t hlt _ _ (fun h => absurd hz h) _
        · iexact Hg
      isplitl [Ho]; · iexact Ho
      isplitl [H0]
      · iexists _; isplitr; · ipureintro; exact after_in0 m c t _
        iexact H0
      isplitl [H1]
      · iexists _; isplitr; · ipureintro; exact after_in1 m c t _
        iexact H1
      isplitl [H2]
      · iexists _; isplitr; · ipureintro; exact after_in2 m c t _
        iexact H2
      isplitl [H3]
      · iexists _; isplitr; · ipureintro; exact after_in3 m c t _
        iexact H3
      isplitl [H4]
      · iexists _; isplitr; · ipureintro; exact after_in4 m c t _
        iexact H4
      isplitl [H5]
      · iexists _; isplitr; · ipureintro; exact after_in5 m c t _
        iexact H5
      iexists _; isplitr; swap; · iexact H6
      ipureintro; rw [after_out]; intro h; omega
    · -- points 1‥24: one more stripe of S2
      have HC0 : ¬cond0_0 (grid0.coords t) := fun h => absurd ((hcond0_0 t).mp h) (by omega)
      have HC1 : cond0_1 (grid0.coords t) := (hcond0_1 t).mpr hlt
      have HC2 : ¬cond0_2 (grid0.coords t) := fun h => absurd ((hcond0_2 t).mp h) (by omega)
      rw [PhiS_pos m c _ _ hz]
      iintro ⟨⟨⟨HS0, ⟨%d1, %hd1, HS1⟩⟩, Hg⟩, Ho, H0, H1, H2, H3, H4, H5, H6⟩
      iapply ((kernelRun0_B c (grid0.coords t) _ _ _ _ _ _ _ _ _ _ _ _ _ _ _ _ _ _ HC0 HC1 HC2 (iblk m c 0 t) (iblk m c 1 t) (iblk m c 2 t) (iblk m c 3 t) (iblk m c 4 t) (iblk m c 5 t) (S1val m c) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, HS0, HS1⟩
      isplitl [HS0 HS1 Hg]
      · isplitl [HS0 HS1]
        · isplitl [HS0]
          · iexact HS0
          · iexists _; isplitr; swap
            · unfold owns; iexists _; isplitr; swap; · iexact HS1
              ipureintro; rfl
            · ipureintro
              rw [piecesB_S2]
              exact S2ok_store m c t hlt _ _ (fun _ => by rw [Memref.IsWhole.read_unread]; exact hd1) _
        · iexact Hg
      isplitl [Ho]; · iexact Ho
      isplitl [H0]
      · iexists _; isplitr; · ipureintro; exact after_in0 m c t _
        iexact H0
      isplitl [H1]
      · iexists _; isplitr; · ipureintro; exact after_in1 m c t _
        iexact H1
      isplitl [H2]
      · iexists _; isplitr; · ipureintro; exact after_in2 m c t _
        iexact H2
      isplitl [H3]
      · iexists _; isplitr; · ipureintro; exact after_in3 m c t _
        iexact H3
      isplitl [H4]
      · iexists _; isplitr; · ipureintro; exact after_in4 m c t _
        iexact H4
      isplitl [H5]
      · iexists _; isplitr; · ipureintro; exact after_in5 m c t _
        iexact H5
      iexists _; isplitr; swap; · iexact H6
      ipureintro; rw [after_out]; intro h; omega
  · -- points 25‥49: one stripe of the output
    have hz : t.val ≠ 0 := by omega
    have HC0 : ¬cond0_0 (grid0.coords t) := fun h => absurd ((hcond0_0 t).mp h) (by omega)
    have HC1 : ¬cond0_1 (grid0.coords t) := fun h => absurd ((hcond0_1 t).mp h) hlt
    have HC2 : cond0_2 (grid0.coords t) := (hcond0_2 t).mpr (by omega)
    rw [PhiS_pos m c _ _ hz]
    iintro ⟨⟨⟨HS0, ⟨%d1, %hd1, HS1⟩⟩, Hg⟩, Ho, H0, H1, H2, H3, H4, H5, H6⟩
    obtain rfl : d1 = S2full m c := S2ok_full m c (t.val - 1) (by omega) d1 hd1
    iapply ((kernelRun0_C c (grid0.coords t) _ _ _ _ _ _ _ _ _ _ _ _ _ _ _ _ _ _ HC0 HC1 HC2 (iblk m c 0 t) (iblk m c 1 t) (iblk m c 2 t) (iblk m c 3 t) (iblk m c 4 t) (iblk m c 5 t) (S1val m c) (S2full m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, HS0, HS1⟩
    isplitl [HS0 HS1 Hg]
    · isplitl [HS0 HS1]
      · isplitl [HS0]
        · iexact HS0
        · iexists _; isplitr; swap; · iexact HS1
          ipureintro; exact S2ok_mono m c (n := t.val - 1) (by omega) _ hd1
      · iexact Hg
    isplitl [Ho]; · iexact Ho
    isplitl [H0]
    · iexists _; isplitr; · ipureintro; exact after_in0 m c t _
      iexact H0
    isplitl [H1]
    · iexists _; isplitr; · ipureintro; exact after_in1 m c t _
      iexact H1
    isplitl [H2]
    · iexists _; isplitr; · ipureintro; exact after_in2 m c t _
      iexact H2
    isplitl [H3]
    · iexists _; isplitr; · ipureintro; exact after_in3 m c t _
      iexact H3
    isplitl [H4]
    · iexists _; isplitr; · ipureintro; exact after_in4 m c t _
      iexact H4
    isplitl [H5]
    · iexists _; isplitr; · ipureintro; exact after_in5 m c t _
      iexact H5
    iexists _; isplitr; swap
    · unfold owns; iexists _; isplitr; swap; · iexact H6
      ipureintro; rfl
    · ipureintro; rw [after_out]; intro _
      exact outC_eq c (grid0.coords t) _ _ _ _ _ _ _ _ _ _ _ _ _ _ _ _ _ _ HC0 HC1 HC2 (iblk m c 0 t) (iblk m c 1 t) (iblk m c 2 t) (iblk m c 3 t) (iblk m c 4 t) (iblk m c 5 t) (S1val m c) (S2full m c) f6

/-- The library's body obligation, of the relational data. -/
theorem body_obligation (c : Dev nD) : (rd (F := F) m c).BodyObligation (defs₀ (F := F)) Variants.none () Set.univ := fun t Y hY => by
  rw [bigSep_W0, bigSep_W0]
  exact sound_body m c t Y hY

end Cert.KernelIdeal.Hand

end
-- ==== Proof.KI.Launch.lean ====
/-
  The launch. The relational proof data meet the library's frame run: the body obligation holds at every point, the
  data lend whole shares and owe nothing, the class invariant is the data's invariant before point 0 and is given back
  after point 49 (the named contents of the two scratch buffers are forgotten). So every weakly fair execution of @main
  terminates without a fault; every input array ends unchanged, the output array ends at contents the data allow, and
  every other unscoped buffer ends at its region-entry contents. The frame claim's post is read off that.
-/
import proofs.«131214_g16277926052538_cont_week2b_966_6_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (rd m c).Φ 0 := by
  rw [show (rd m c).Φ 0 = PhiS m c 0 (Nat.zero_le _) from rfl, PhiS_zero m c 0 _ rfl]
  try exact Idealize.SL.BI.Entails.refl _

/-- After the last point the invariant gives the class's back: what the scratch buffers hold is forgotten. -/
theorem hout (c : Dev nD) : (rd m c).Φ (Fin.last cfg0.N) ⊢ Pipeline.ΦA spec0 c := by
  rw [show (rd m c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA0_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- From any memory with zero counters, for any values: every weakly fair execution of @main on the TensorCores
    terminates, and every final state has every input array unchanged, the output array at contents the relational data
    allow after every write-back, and every other unscoped buffer at its region-entry contents. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := rd_A m) (hin := hin m) (hout := hout m)

/-- THE FRAME: the program runs, nothing faults, and its six argument arrays end unchanged — at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_r m ρ (fun c => rd m c) (rd_A m) (run_main m ρ)

end Cert.KernelIdeal.Hand

end
-- ==== Proof.KI.Out.lean ====
/-
  The whole output array after the region, as one function of the index: row r lies in stripe r / 400, which the
  grid writes back last after point 49 − r / 400 (the second phase walks the stripes downwards), at row r % 400 of the
  stripe that point stores.
-/
import proofs.«131214_g16277926052538_cont_week2b_966_6_alg».proof.Proof.KI.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output array the region leaves. -/
def Gout (c : Dev nD) : Vec F S10000x32 .f32 := fun i =>
  outBlk m c (pt (49 - (i 0).val / 400) (by omega))
    (ValueIdx.ix2 (⟨(i 0).val % 400, Nat.mod_lt _ (by omega)⟩ : Fin 400) (⟨(i 1).val, ValueIdx.idx2_lt1 i⟩ : Fin 32))

end Cert.KernelIdeal.Hand

end
-- ==== Proof.LibArrLast.lean ====
/-
  A general fact about relational pipeline data. An output array may be written back several times over the
  same block: the contents an index ends with are those of the LAST write-back whose block holds it. If at that
  point everything the body may leave agrees, on the moved part, with the block of one whole-array function `G`,
  and no later write-back touches the index, the index ends at `G`, whatever earlier write-backs put there.
-/
import Idealize.ShloMosaic.Lib.Pipeline.Value

namespace Idealize.ShloMosaic

open Idealize.SL Idealize.SL.RA Idealize.SL.Sem

namespace Pipeline

open TcCoe

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- THE LAST WRITER WINS. Index `i` lies in the block written back at point `t`; whatever the body may leave at `t`
    has, as its moved part, the block of `G` there; no write-back after `t` covers `i`. Then any contents the array
    may hold after the write-backs below `n > t` read `G i` at `i`. -/
theorem RDat.ArrAt_apply_of_last (w : Fin cfg.W) (G : Buf Val ((cfg.win w).arr.view.loc (c.tc : Thread nD τ)))
    (t : Fin cfg.N) (i : ((cfg.win w).arr.view.loc (c.tc : Thread nD τ)).2.ty.Idx)
    (hf : (cfg.win w).flush t = true) (hi : i ∈ ((cfg.win w).blk t).view.set)
    (hG : ∀ X, rd.Leaves w t X → (cfg.win w).cut (cfg.grid.coords t) X = ((cfg.win w).blk t).view.read Val G)
    (hlater : ∀ u : Fin cfg.N, t.val < u.val → (cfg.win w).flush u = true → i ∉ ((cfg.win w).blk u).view.set) :
    ∀ (n : Nat), t.val < n → ∀ F, rd.ArrAt w n F → F i = G i
  | 0, ht, _, _ => absurd ht (Nat.not_lt_zero _)
  | n + 1, ht, F, hF => by
    by_cases hn : n < cfg.N
    · have hs := rd.ArrAt_succ w ⟨n, hn⟩
      change rd.ArrAt w (n + 1) = _ at hs
      rw [hs] at hF
      by_cases hfn : (cfg.win w).flush ⟨n, hn⟩ = true
      · rw [if_pos hfn] at hF
        obtain ⟨G₀, X, hG₀, hX, rfl⟩ := hF
        by_cases htn : t.val = n
        · obtain rfl : t = ⟨n, hn⟩ := Fin.ext htn
          rw [hG X hX, View.write_read_eq_piecewise,
            Finset.piecewise_eq_of_mem _ _ _ (by rw [View.setOn_univ]; exact hi)]
        · have hlt : t.val < n := by omega
          rw [View.write_of_not_mem _ _ _ (by rw [View.setOn_univ]; exact hlater ⟨n, hn⟩ hlt hfn)]
          exact RDat.ArrAt_apply_of_last w G t i hf hi hG hlater n hlt G₀ hG₀
      · rw [if_neg hfn] at hF
        have htn : t.val ≠ n := fun e => hfn (by have : t = ⟨n, hn⟩ := Fin.ext e; exact this ▸ hf)
        exact RDat.ArrAt_apply_of_last w G t i hf hi hG hlater n (by omega) F hF
    · have h1 := rd.ArrAt_stable w (n + 1) (by omega)
      have h2 := rd.ArrAt_stable w n (by omega)
      rw [h1, ← h2] at hF
      exact RDat.ArrAt_apply_of_last w G t i hf hi hG hlater n (by have := t.isLt; omega) F hF

end Pipeline

end Idealize.ShloMosaic
-- ==== Proof.KI.Final.lean ====
/-
  The output array after every write-back. Block 0 is written back twice: after point 24 with whatever the output
  staging buffer then holds, and after point 49 with the first output stripe; blocks 24 down to 1 once each, after points
  25 to 48. At every index the last write-back that covers it moves the stripe the proof data name, so the array ends
  at the one function `Gout`.

  Row r lies in stripe q = r / 400. The point that writes stripe q last is 49 − q (never below 25): its block index is
  49 − (49 − q) = q, so the index lies in its block; every later point u has block index 49 − u < q, so its block ends
  at or below row 400 q and misses the index; and what point t ≥ 25 moves, read at row y0 and column y1 of the block,
  is `Gout` at row 400 (49 − t) + y0, whose stripe is 49 − t and whose row inside the stripe is y0.
-/
import proofs.«131214_g16277926052538_cont_week2b_966_6_alg».proof.Proof.KI.Out
import proofs.«131214_g16277926052538_cont_week2b_966_6_alg».proof.Proof.LibArrLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is written back after point 24 and after every later point. -/
theorem flush6 : ∀ t : Fin cfg0.N, (cfg0.win 6).flush t = true ↔ 24 ≤ t.val :=
  (by decide +kernel : ∀ t : Fin grid0.N, win0_6.flush t = true ↔ 24 ≤ t.val)

/-- The output window's block index: stripe 0 up to point 24, stripe 49 − t from point 25 on; one block of columns. -/
theorem idx6 : ∀ t : Fin cfg0.N, win0_6.index t (0 : Fin 2) = (if t.val < 25 then 0 else 49 - t.val) ∧ win0_6.index t (1 : Fin 2) = 0 :=
  (by decide +kernel : ∀ t : Fin grid0.N, win0_6.index t (0 : Fin 2) = (if t.val < 25 then 0 else 49 - t.val) ∧ win0_6.index t (1 : Fin 2) = 0)

/-- An index of the output array is in point `t`'s block iff each coordinate is in the block's range on its axis. -/
theorem mem_blk6 (t : Fin cfg0.N) (i : S10000x32.Idx) :
    i ∈ ((cfg0.win 6).blk t).view.set ↔ ∀ a : Fin 2, win0_6.index t a * S400x32.size a ≤ (i a).val ∧ (i a).val < win0_6.index t a * S400x32.size a + S400x32.size a := by
  show i ∈ ((View.whole main_v2).slice (win0_6.rect t)).set ↔ _
  rw [View.set_slice_whole, Rect.mem_set_unit]
  exact Iff.rfl

/-- A stripe read at equal points and equal indices. -/
theorem outBlk_congr (c : Dev nD) {t t' : Fin cfg0.N} {y y' : S400x32.Idx} (ht : t = t') (hy : y = y') :
    outBlk m c t y = outBlk m c t' y' := by subst ht; subst hy; rfl

/-- From point 25 on, what the point writes back is its block of `Gout`: the window is never cut (10000 = 25 · 400),
    so the moved part is the whole stripe, and row y0 of block 49 − t is row 400 (49 − t) + y0 of the array. -/
theorem read_blk6 (c : Dev nD) (t : Fin cfg0.N) (ht : 25 ≤ t.val) :
    (cfg0.win 6).cut (cfg0.grid.coords t) (outBlk m c t) = ((cfg0.win 6).blk t).view.read (Elt F) (Gout m c) := by
  funext y
  have ht50 : t.val < 50 := lt_of_lt_of_eq t.isLt N_0
  obtain ⟨e0, e1⟩ := idx6 t
  rw [if_neg (by omega)] at e0
  have hy0 : (y 0).val < 400 := (y 0).isLt
  have hy1 : (y 1).val < 32 := (y 1).isLt
  show outBlk m c t y = Gout m c (((cfg0.win 6).blk t).view.emb y)
  have r0 : ((((cfg0.win 6).blk t).view.emb y) 0).val = win0_6.index t (0 : Fin 2) * 400 + 1 * (y 0).val := rfl
  have r1 : ((((cfg0.win 6).blk t).view.emb y) 1).val = win0_6.index t (1 : Fin 2) * 32 + 1 * (y 1).val := rfl
  unfold Gout
  refine outBlk_congr m c (Fin.ext ?_) ?_
  · show t.val = 49 - ((((cfg0.win 6).blk t).view.emb y) 0).val / 400
    rw [r0, e0]; omega
  · refine (ValueIdx.eq_ix2 y).trans ?_
    congr 1
    · apply Fin.ext
      show (y 0).val = ((((cfg0.win 6).blk t).view.emb y) 0).val % 400
      rw [r0, e0]; omega
    · apply Fin.ext
      show (y 1).val = ((((cfg0.win 6).blk t).view.emb y) 1).val
      rw [r1, e1]; omega

/-- Whatever contents the relational data allow the output array after all fifty points are `Gout`. -/
theorem final (c : Dev nD) (Fa : Buf (Elt F) ((cfg0.win 6).arr.view.loc (c.tc : Thread nD τ)))
    (h : (rd m c).ArrAt 6 cfg0.N Fa) : Fa = Gout m c := by
  funext i
  have hr : (i 0).val < 10000 := ValueIdx.idx2_lt0 (n0 := 10000) (n1 := 32) i
  have hc : (i 1).val < 32 := ValueIdx.idx2_lt1 (n0 := 10000) (n1 := 32) i
  have hq : 49 - (i 0).val / 400 < 50 := by omega
  refine Pipeline.RDat.ArrAt_apply_of_last (rd m c) 6 (Gout m c) (pt (49 - (i 0).val / 400) hq) i
    ((flush6 _).mpr (by show 24 ≤ 49 - (i 0).val / 400; omega)) ?_ ?_ ?_ cfg0.N (lt_of_lt_of_eq hq N_0.symm) Fa h
  · -- the index lies in the block of point 49 − r / 400: that block is stripe r / 400
    rw [mem_blk6]
    obtain ⟨e0, e1⟩ := idx6 (pt (49 - (i 0).val / 400) hq)
    have e0' : win0_6.index (pt (49 - (i 0).val / 400) hq) (0 : Fin 2) = (if 49 - (i 0).val / 400 < 25 then 0 else 49 - (49 - (i 0).val / 400)) := e0
    intro a
    match a with
    | ⟨0, _⟩ =>
      show win0_6.index (pt (49 - (i 0).val / 400) hq) (0 : Fin 2) * 400 ≤ (i 0).val ∧ (i 0).val < win0_6.index (pt (49 - (i 0).val / 400) hq) (0 : Fin 2) * 400 + 400
      rw [e0']; split <;> omega
    | ⟨1, _⟩ =>
      show win0_6.index (pt (49 - (i 0).val / 400) hq) (1 : Fin 2) * 32 ≤ (i 1).val ∧ (i 1).val < win0_6.index (pt (49 - (i 0).val / 400) hq) (1 : Fin 2) * 32 + 32
      rw [e1]; omega
  · -- what that point writes back is its block of Gout
    intro X hX
    have ht : 25 ≤ (pt (49 - (i 0).val / 400) hq).val := by show 25 ≤ 49 - (i 0).val / 400; omega
    rw [leaves_out m c _ X hX ht]
    exact read_blk6 m c _ ht
  · -- a later point's block is a lower stripe: it does not cover the index
    intro u hu hfu
    have hu' : 49 - (i 0).val / 400 < u.val := hu
    have hu50 : u.val < 50 := lt_of_lt_of_eq u.isLt N_0
    rw [mem_blk6]
    intro hmem
    have h0 : win0_6.index u (0 : Fin 2) * 400 ≤ (i 0).val ∧ (i 0).val < win0_6.index u (0 : Fin 2) * 400 + 400 := hmem 0
    obtain ⟨e0, -⟩ := idx6 u
    rw [e0] at h0
    split at h0 <;> omega

end Cert.KernelIdeal.Hand

end
-- ==== Proof.KI.ValueRun.lean ====
/-
  The idealized kernel's run with its result named: every weakly fair execution of @main terminates, the output array
  ends at the one function `Gout` of the argument arrays (whatever the relational data allow after every write-back is
  that function), and the six argument arrays end unchanged.
-/
import proofs.«131214_g16277926052538_cont_week2b_966_6_alg».proof.Proof.KI.Launch
import proofs.«131214_g16277926052538_cont_week2b_966_6_alg».proof.Proof.KI.Final

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v2) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final m c _ ((h c).1 6),
      (Pipeline.RDat.FramePost.arr_in h c 1 rfl).trans ((rd_A m c 1).trans (V_main_arg0 m c)),
      (Pipeline.RDat.FramePost.arr_in h c 0 rfl).trans ((rd_A m c 0).trans (V_main_arg1 m c)),
      (Pipeline.RDat.FramePost.arr_in h c 2 rfl).trans ((rd_A m c 2).trans (V_main_arg2 m c)),
      ((h c).2 main_arg3 (Pipeline.mem_restRefs_of main_arg3 (by decide) (by decide))).trans (V_main_arg3 m c),
      (Pipeline.RDat.FramePost.arr_in h c 4 rfl).trans ((rd_A m c 4).trans (V_main_arg4 m c)),
      ((h c).2 main_arg5 (Pipeline.mem_restRefs_of main_arg5 (by decide) (by decide))).trans (V_main_arg5 m c)⟩) (run_main m ρ)

end Cert.KernelIdeal.Hand

end
-- ==== Proof.Value.RefRun.lean ====
/-
  The reference program's run and its operations read at an index: the generated modules, gathered for the value proof.
-/
import proofs.«131214_g16277926052538_cont_week2b_966_6_alg».proof.Proof.Gen.ReferenceIdeal.Run
import proofs.«131214_g16277926052538_cont_week2b_966_6_alg».proof.Proof.Gen.ReferenceIdeal.Read
-- ==== Proof.Value.Spec.lean ====
/-
  The two-layer graph convolution as ONE function of its six arguments, index by index, over the extended reals.
  With x the node features, adj the adjacency matrix, W1, b1 the first layer's weights and bias and W2, b2 the second's:
      xw[l,h]  = Σ_f x[l,f] · W1[f,h]
      hid[k,h] = max(Σ_l adj[k,l] · xw[l,h] + b1[h], 0)
      hw[k,j]  = Σ_h hid[k,h] · W2[h,j]
      out[r,j] = Σ_k adj[r,k] · hw[k,j] + b2[j]
  Each product is summed over its contracted axis in one piece; nothing is regrouped, so no law of the extended reals
  is needed to compare two programs that both compute the products whole.
-/
import Idealize.ShloMosaic.PureOps.Ideal
import Idealize.ShloMosaic.Lib.ValueIdx

noncomputable section

namespace Cert.Proof.Value

open Idealize.ShloMosaic Idealize.ShloMosaic.ValueIdx

/-- The features times the first weights, at (l, h). -/
def xw (x : FVec Ideal ⟨2, ![10000, 128]⟩ .f32) (W1 : FVec Ideal ⟨2, ![128, 64]⟩ .f32) (l : Fin 10000) (h : Fin 64) : EReal :=
  ∑ f : Fin 128, x (ix2 l f) * W1 (ix2 f h)

/-- The hidden layer at (k, h): the adjacency's row k against column h of `xw`, plus the bias, cut below at zero. -/
def hid (x : FVec Ideal ⟨2, ![10000, 128]⟩ .f32) (adj : FVec Ideal ⟨2, ![10000, 10000]⟩ .f32)
    (W1 : FVec Ideal ⟨2, ![128, 64]⟩ .f32) (b1 : FVec Ideal ⟨1, ![64]⟩ .f32) (k : Fin 10000) (h : Fin 64) : EReal :=
  max ((∑ l : Fin 10000, adj (ix2 k l) * xw x W1 l h) + b1 (ix1 h)) (Ideal.ofBits .f32 0x00000000#32)

/-- The hidden layer times the second weights, at (k, j). -/
def hw (x : FVec Ideal ⟨2, ![10000, 128]⟩ .f32) (adj : FVec Ideal ⟨2, ![10000, 10000]⟩ .f32)
    (W1 : FVec Ideal ⟨2, ![128, 64]⟩ .f32) (b1 : FVec Ideal ⟨1, ![64]⟩ .f32) (W2 : FVec Ideal ⟨2, ![64, 32]⟩ .f32)
    (k : Fin 10000) (j : Fin 32) : EReal :=
  ∑ h : Fin 64, hid x adj W1 b1 k h * W2 (ix2 h j)

/-- The network's output at (r, j). -/
def outAt (x : FVec Ideal ⟨2, ![10000, 128]⟩ .f32) (adj : FVec Ideal ⟨2, ![10000, 10000]⟩ .f32)
    (W1 : FVec Ideal ⟨2, ![128, 64]⟩ .f32) (b1 : FVec Ideal ⟨1, ![64]⟩ .f32) (W2 : FVec Ideal ⟨2, ![64, 32]⟩ .f32)
    (b2 : FVec Ideal ⟨1, ![32]⟩ .f32) (r : Fin 10000) (j : Fin 32) : EReal :=
  (∑ k : Fin 10000, adj (ix2 r k) * hw x adj W1 b1 W2 k j) + b2 (ix1 j)

/-- The network's output array. -/
def gcn (x : FVec Ideal ⟨2, ![10000, 128]⟩ .f32) (adj : FVec Ideal ⟨2, ![10000, 10000]⟩ .f32)
    (W1 : FVec Ideal ⟨2, ![128, 64]⟩ .f32) (b1 : FVec Ideal ⟨1, ![64]⟩ .f32) (W2 : FVec Ideal ⟨2, ![64, 32]⟩ .f32)
    (b2 : FVec Ideal ⟨1, ![32]⟩ .f32) : FVec Ideal ⟨2, ![10000, 32]⟩ .f32 := fun i =>
  outAt x adj W1 b1 W2 b2 ⟨(i 0).val, idx2_lt0 i⟩ ⟨(i 1).val, idx2_lt1 i⟩

/-- At the index built from (r, j) the array reads `outAt` there. -/
theorem gcn_ix2 (x : FVec Ideal ⟨2, ![10000, 128]⟩ .f32) (adj : FVec Ideal ⟨2, ![10000, 10000]⟩ .f32)
    (W1 : FVec Ideal ⟨2, ![128, 64]⟩ .f32) (b1 : FVec Ideal ⟨1, ![64]⟩ .f32) (W2 : FVec Ideal ⟨2, ![64, 32]⟩ .f32)
    (b2 : FVec Ideal ⟨1, ![32]⟩ .f32) (r : Fin 10000) (j : Fin 32) :
    gcn x adj W1 b1 W2 b2 (ix2 r j) = outAt x adj W1 b1 W2 b2 r j := rfl

end Cert.Proof.Value

end
-- ==== Proof.Value.RefSpec.lean ====
/-
  The reference program's result, read index by index through its operations, is the two-layer graph convolution of its
  six arguments: its four matrix products are the sums over the contracted axis, its two biases are repeated down the
  rows, its maximum is taken with the zero constant repeated everywhere.
-/
import proofs.«131214_g16277926052538_cont_week2b_966_6_alg».proof.Proof.Value.RefRun
import proofs.«131214_g16277926052538_cont_week2b_966_6_alg».proof.Proof.Value.Spec

noncomputable section

namespace Cert.Proof.Value

open Idealize.ShloMosaic Idealize.ShloMosaic.TcCoe Idealize.SL.Sem Idealize.ShloMosaic.ValueIdx
open Cert.ReferenceIdeal Cert.ReferenceIdeal.Read

/-- The reference's first product at (l, h). -/
theorem ref_xw (x : FVec Ideal S10000x128 .f32) (W1 : FVec Ideal S128x64 .f32) (l : Fin 10000) (h : Fin 64) :
    val_main_v0 (F := Ideal) x W1 (ix2 l h) = xw x W1 l h := by
  rw [val_main_v0_apply]
  unfold xw
  refine Finset.sum_congr rfl fun f _ => ?_
  have el : lidx_main_v0 (ix2 l h) f = ix2 l f := funext fun a => Fin.ext (by match a with | ⟨0, _⟩ => rfl | ⟨1, _⟩ => rfl)
  have er : ridx_main_v0 (ix2 l h) f = ix2 f h := funext fun a => Fin.ext (by match a with | ⟨0, _⟩ => rfl | ⟨1, _⟩ => rfl)
  rw [el, er]

/-- The reference's hidden layer at (k, h). -/
theorem ref_hid (x : FVec Ideal S10000x128 .f32) (adj : FVec Ideal S10000x10000 .f32) (W1 : FVec Ideal S128x64 .f32)
    (b1 : FVec Ideal S64 .f32) (k : Fin 10000) (h : Fin 64) :
    val_main_v5 (F := Ideal) x adj W1 b1 (ix2 k h) = hid x adj W1 b1 k h := by
  rw [val_main_v5_apply, val_main_v4_apply, val_main_v1_apply, val_main_v3_apply, val_main_v2_apply,
    val_main_call0_v0_apply, val_main_call0_cst_apply]
  unfold hid
  have eb : idx_main_v2 (idx_main_v3 (ix2 k h)) = ix1 h := funext fun a => Fin.ext (by match a with | ⟨0, _⟩ => rfl)
  rw [eb]
  show max ((∑ l : Fin 10000, _) + b1 (ix1 h)) (Ideal.ofBits .f32 0x00000000#32) = _
  refine congrArg (fun s => max (s + b1 (ix1 h)) (Ideal.ofBits .f32 0x00000000#32)) (Finset.sum_congr rfl fun l _ => ?_)
  have el : lidx_main_v1 (ix2 k h) l = ix2 k l := funext fun a => Fin.ext (by match a with | ⟨0, _⟩ => rfl | ⟨1, _⟩ => rfl)
  have er : ridx_main_v1 (ix2 k h) l = ix2 l h := funext fun a => Fin.ext (by match a with | ⟨0, _⟩ => rfl | ⟨1, _⟩ => rfl)
  rw [el, er, ref_xw]

/-- The reference's second product at (k, j). -/
theorem ref_hw (x : FVec Ideal S10000x128 .f32) (adj : FVec Ideal S10000x10000 .f32) (W1 : FVec Ideal S128x64 .f32)
    (b1 : FVec Ideal S64 .f32) (W2 : FVec Ideal S64x32 .f32) (k : Fin 10000) (j : Fin 32) :
    val_main_v6 (F := Ideal) x adj W1 b1 W2 (ix2 k j) = hw x adj W1 b1 W2 k j := by
  rw [val_main_v6_apply]
  unfold hw
  refine Finset.sum_congr rfl fun h _ => ?_
  have el : lidx_main_v6 (ix2 k j) h = ix2 k h := funext fun a => Fin.ext (by match a with | ⟨0, _⟩ => rfl | ⟨1, _⟩ => rfl)
  have er : ridx_main_v6 (ix2 k j) h = ix2 h j := funext fun a => Fin.ext (by match a with | ⟨0, _⟩ => rfl | ⟨1, _⟩ => rfl)
  rw [el, er, ref_hid]

/-- The reference's result at (r, j). -/
theorem ref_outAt (x : FVec Ideal S10000x128 .f32) (adj : FVec Ideal S10000x10000 .f32) (W1 : FVec Ideal S128x64 .f32)
    (b1 : FVec Ideal S64 .f32) (W2 : FVec Ideal S64x32 .f32) (b2 : FVec Ideal S32 .f32) (r : Fin 10000) (j : Fin 32) :
    val_main_v10 (F := Ideal) x adj W1 b1 W2 b2 (ix2 r j) = outAt x adj W1 b1 W2 b2 r j := by
  rw [val_main_v10_apply, val_main_v7_apply, val_main_v9_apply, val_main_v8_apply]
  unfold outAt
  have eb : idx_main_v8 (idx_main_v9 (ix2 r j)) = ix1 j := funext fun a => Fin.ext (by match a with | ⟨0, _⟩ => rfl)
  rw [eb]
  show (∑ k : Fin 10000, _) + b2 (ix1 j) = _
  refine congrArg (fun s => s + b2 (ix1 j)) (Finset.sum_congr rfl fun k _ => ?_)
  have el : lidx_main_v7 (ix2 r j) k = ix2 r k := funext fun a => Fin.ext (by match a with | ⟨0, _⟩ => rfl | ⟨1, _⟩ => rfl)
  have er : ridx_main_v7 (ix2 r j) k = ix2 k j := funext fun a => Fin.ext (by match a with | ⟨0, _⟩ => rfl | ⟨1, _⟩ => rfl)
  rw [el, er, ref_hw]

/-- The reference's result array is the network's output array. -/
theorem ref_eq_gcn (x : FVec Ideal S10000x128 .f32) (adj : FVec Ideal S10000x10000 .f32) (W1 : FVec Ideal S128x64 .f32)
    (b1 : FVec Ideal S64 .f32) (W2 : FVec Ideal S64x32 .f32) (b2 : FVec Ideal S32 .f32) :
    val_main_v10 (F := Ideal) x adj W1 b1 W2 b2 = gcn x adj W1 b1 W2 b2 := by
  funext i
  obtain ⟨r, j, rfl⟩ : ∃ (r : Fin 10000) (j : Fin 32), i = ix2 r j := ⟨i 0, i 1, eq_ix2 i⟩
  rw [ref_outAt, gcn_ix2]

end Cert.Proof.Value

end
-- ==== Proof.Value.Blocks.lean ====
/-
  What each input window's block is at a grid point, as a function of the program's argument arrays. The features, the
  two weight matrices and the two biases are whole-array windows: their block is the array at every point (a bias
  reaches the region as a one-row array, which the host makes of it by adding a unit axis in front). The adjacency is cut
  into stripes of four hundred rows; a point below 25 stages the stripe of its own number, a point from 25 on the
  stripe 49 minus its number.
-/
import proofs.«131214_g16277926052538_cont_week2b_966_6_alg».proof.Proof.KI.Defs
import Idealize.ShloMosaic.Lib.Pipeline.Value
import Idealize.ShloMosaic.Lib.ValueIdx
import Idealize.ShloMosaic.Lib.ValueLayout

set_option maxRecDepth 16384

noncomputable section

namespace Cert.KernelIdeal.Hand.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.KernelIdeal Cert.KernelIdeal.Gen Cert.KernelIdeal.Hand

variable {F : FTy → Type} [FloatOps F]

variable (m : (ℓ : Loc nD τ sig) → Buf (Elt F) ℓ)

/-- The stripe of adj a point stages: the point's own below 25, the mirrored one from 25 on. -/
theorem adj_index : ∀ t : Fin cfg0.N, win0_0.index t (0 : Fin 2) = (if t.val < 25 then t.val else 49 - t.val) ∧ win0_0.index t (1 : Fin 2) = 0 :=
  (by decide +kernel : ∀ t : Fin grid0.N, win0_0.index t (0 : Fin 2) = (if t.val < 25 then t.val else 49 - t.val) ∧ win0_0.index t (1 : Fin 2) = 0)

/-- The adjacency's block at a point, read at (p, l): row 400·s + p of adj at column l, s the stripe the point stages. -/
theorem iblk0_apply (c : Dev nD) (t : Fin cfg0.N) (p : Fin 400) (l : Fin 10000) (r : Fin 10000)
    (hr : r.val = 400 * (if t.val < 25 then t.val else 49 - t.val) + p.val) :
    (iblk m c 0 t : Vec F S400x10000 .f32) (ix2 p l) = m ((c : Thread nD τ).loc main_arg1) (ix2 r l) := by
  unfold iblk
  rw [View.read_apply]
  show V m c main_arg1 _ = _
  rw [V_main_arg1]
  congr 1
  funext a
  apply Fin.ext
  match a with
  | ⟨0, _⟩ => show win0_0.index t 0 * 400 + 1 * p.val = r.val; rw [(adj_index t).1, hr]; omega
  | ⟨1, _⟩ => show win0_0.index t 1 * 10000 + 1 * l.val = l.val; rw [(adj_index t).2]; omega

theorem whole_index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The features' block is the whole array at every point. -/
theorem iblk1_eq (c : Dev nD) (t : Fin cfg0.N) : (iblk m c 1 t : Vec F S10000x128 .f32) = m ((c : Thread nD τ).loc main_arg0) := by
  funext j
  unfold iblk
  rw [View.read_apply]
  show V m c main_arg0 _ = _
  rw [V_main_arg0]
  congr 1
  funext a
  apply Fin.ext
  match a with
  | ⟨0, _⟩ => show win0_1.index t 0 * 10000 + 1 * (j 0).val = (j 0).val; rw [(whole_index1 t).1]; omega
  | ⟨1, _⟩ => show win0_1.index t 1 * 128 + 1 * (j 1).val = (j 1).val; rw [(whole_index1 t).2]; omega

theorem whole_index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The first weights' block is the whole array at every point. -/
theorem iblk2_eq (c : Dev nD) (t : Fin cfg0.N) : (iblk m c 2 t : Vec F S128x64 .f32) = m ((c : Thread nD τ).loc main_arg2) := by
  funext j
  unfold iblk
  rw [View.read_apply]
  show V m c main_arg2 _ = _
  rw [V_main_arg2]
  congr 1
  funext a
  apply Fin.ext
  match a with
  | ⟨0, _⟩ => show win0_2.index t 0 * 128 + 1 * (j 0).val = (j 0).val; rw [(whole_index2 t).1]; omega
  | ⟨1, _⟩ => show win0_2.index t 1 * 64 + 1 * (j 1).val = (j 1).val; rw [(whole_index2 t).2]; omega

theorem whole_index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The second weights' block is the whole array at every point. -/
theorem iblk4_eq (c : Dev nD) (t : Fin cfg0.N) : (iblk m c 4 t : Vec F S64x32 .f32) = m ((c : Thread nD τ).loc main_arg4) := by
  funext j
  unfold iblk
  rw [View.read_apply]
  show V m c main_arg4 _ = _
  rw [V_main_arg4]
  congr 1
  funext a
  apply Fin.ext
  match a with
  | ⟨0, _⟩ => show win0_4.index t 0 * 64 + 1 * (j 0).val = (j 0).val; rw [(whole_index4 t).1]; omega
  | ⟨1, _⟩ => show win0_4.index t 1 * 32 + 1 * (j 1).val = (j 1).val; rw [(whole_index4 t).2]; omega

theorem whole_index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The array the host wrote before the region: the bias with a unit axis in front. -/
theorem V_main_v0 (c : Dev nD) :
    (V m c main_v0 : S1x64.Idx → Elt F .f32) = shapeCast S1x64 (m ((c : Thread nD τ).loc main_arg3)) shapeCasts_S64_S1x64 := by
  dsimp only [Gen.V, Gen.hostOps0]
  after_results
  rfl

/-- The first bias's block, read at (0, h), is the bias at h. -/
theorem iblk3_apply (c : Dev nD) (t : Fin cfg0.N) (u : Fin 1) (h : Fin 64) :
    (iblk m c 3 t : Vec F S1x64 .f32) (ix2 u h) = m ((c : Thread nD τ).loc main_arg3) (ix1 h) := by
  have e : (iblk m c 3 t : Vec F S1x64 .f32) = (V m c main_v0 : S1x64.Idx → Elt F .f32) := by
    funext j
    unfold iblk
    rw [View.read_apply]
    show V m c main_v0 _ = V m c main_v0 j
    congr 1
    funext a
    apply Fin.ext
    match a with
    | ⟨0, _⟩ => show win0_3.index t 0 * 1 + 1 * (j 0).val = (j 0).val; rw [(whole_index3 t).1]; omega
    | ⟨1, _⟩ => show win0_3.index t 1 * 64 + 1 * (j 1).val = (j 1).val; rw [(whole_index3 t).2]; omega
  rw [e, V_main_v0]
  exact shapeCast_a_1a_apply _ _ u h

theorem whole_index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The array the host wrote before the region: the bias with a unit axis in front. -/
theorem V_main_v1 (c : Dev nD) :
    (V m c main_v1 : S1x32.Idx → Elt F .f32) = shapeCast S1x32 (m ((c : Thread nD τ).loc main_arg5)) shapeCasts_S32_S1x32 := by
  dsimp only [Gen.V, Gen.hostOps0]
  after_results
  rfl

/-- The second bias's block, read at (0, j), is the bias at j. -/
theorem iblk5_apply (c : Dev nD) (t : Fin cfg0.N) (u : Fin 1) (h : Fin 32) :
    (iblk m c 5 t : Vec F S1x32 .f32) (ix2 u h) = m ((c : Thread nD τ).loc main_arg5) (ix1 h) := by
  have e : (iblk m c 5 t : Vec F S1x32 .f32) = (V m c main_v1 : S1x32.Idx → Elt F .f32) := by
    funext j
    unfold iblk
    rw [View.read_apply]
    show V m c main_v1 _ = V m c main_v1 j
    congr 1
    funext a
    apply Fin.ext
    match a with
    | ⟨0, _⟩ => show win0_5.index t 0 * 1 + 1 * (j 0).val = (j 0).val; rw [(whole_index5 t).1]; omega
    | ⟨1, _⟩ => show win0_5.index t 1 * 32 + 1 * (j 1).val = (j 1).val; rw [(whole_index5 t).2]; omega
  rw [e, V_main_v1]
  exact shapeCast_a_1a_apply _ _ u h

end Cert.KernelIdeal.Hand.Blocks

end
-- ==== Proof.Value.Products.lean ====
/-
  The kernel body's three stored values at the ideal instance, read at an index. Each matrix product into a zero
  accumulator is there the plain sum over the contracted axis of the left operand's row times the right operand's
  column; the layout operations around it are identities or the repetition of a one-row array down the rows; the sum with
  the bias and the maximum with zero are pointwise. So the first stored value is x·W1; the second, for a stripe a of
  adj, max(a·S1 + b1, 0)·W2; the third a·S2 + b2.
-/
import proofs.«131214_g16277926052538_cont_week2b_966_6_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.Products

open Cert.KernelIdeal Cert.KernelIdeal.Gen Idealize.ShloMosaic Idealize.ShloMosaic.TcCoe Idealize.SL.Sem Idealize.ShloMosaic.ValueIdx

/-! ## The four products -/

theorem lhs_xw_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_xw_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_xw_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_xw_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- At the ideal values the product into the zero accumulator, read at (p, j), is the sum over the contracted axis of
    the left operand's row p times the right operand's column j. -/
theorem matmul_xw_apply (lhs : FVec Ideal S10000x128 .f32) (rhs : FVec Ideal S128x64 .f32) (p : Fin 10000) (j : Fin 64) :
    matmul (F := Ideal) dot_S10000x128_S128x64_S10000x64_1_0_0_1_n_n none lhs rhs (constant (F := Ideal) S10000x64 .f32 0x00000000#32) (ix2 p j)
      = ∑ k : Fin 128, lhs (ix2 p k) * rhs (ix2 k j) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p j) ((ValueIdx.contrEquiv1 dot_S10000x128_S128x64_S10000x64_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x64_S10000x64_1_0_0_1_n_n.rhsIdx (ix2 p j) ((ValueIdx.contrEquiv1 dot_S10000x128_S128x64_S10000x64_1_0_0_1_n_n 128 rfl rfl).symm k) = ix2 k j := funext fun a => Fin.ext (by
    match a with
    | ⟨0, _⟩ => exact (rhs_xw_0 _ _).trans hk
    | ⟨1, _⟩ => exact rhs_xw_1 _ _)
  rw [el, er]

theorem lhs_ax_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_ax_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_ax_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_ax_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- At the ideal values the product into the zero accumulator, read at (p, j), is the sum over the contracted axis of
    the left operand's row p times the right operand's column j. -/
theorem matmul_ax_apply (lhs : FVec Ideal S400x10000 .f32) (rhs : FVec Ideal S10000x64 .f32) (p : Fin 400) (j : Fin 64) :
    matmul (F := Ideal) dot_S400x10000_S10000x64_S400x64_1_0_0_1_n_n none lhs rhs (constant (F := Ideal) S400x64 .f32 0x00000000#32) (ix2 p j)
      = ∑ k : Fin 10000, lhs (ix2 p k) * rhs (ix2 k j) := by
  simp only [matmul]
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ix2 p j) ((ValueIdx.contrEquiv1 dot_S400x10000_S10000x64_S400x64_1_0_0_1_n_n 10000 rfl rfl).symm k) = ix2 p k := funext fun a => Fin.ext (by
    match a with
    | ⟨0, _⟩ => exact lhs_ax_0 _ _
    | ⟨1, _⟩ => exact (lhs_ax_1 _ _).trans hk)
  have er : dot_S400x10000_S10000x64_S400x64_1_0_0_1_n_n.rhsIdx (ix2 p j) ((ValueIdx.contrEquiv1 dot_S400x10000_S10000x64_S400x64_1_0_0_1_n_n 10000 rfl rfl).symm k) = ix2 k j := funext fun a => Fin.ext (by
    match a with
    | ⟨0, _⟩ => exact (rhs_ax_0 _ _).trans hk
    | ⟨1, _⟩ => exact rhs_ax_1 _ _)
  rw [el, er]

theorem lhs_hw_0 (i : S400x32.Idx) (q : dot_S400x64_S64x32_S400x32_1_0_0_1_n_n.contr.Idx) :
    (dot_S400x64_S64x32_S400x32_1_0_0_1_n_n.lhsIdx i q 0).val = (i 0).val := by
  unfold DotDims.lhsIdx
  rw [dif_neg (show ¬(0 : Fin S400x64.rank) ∈ dot_S400x64_S64x32_S400x32_1_0_0_1_n_n.lhsBatch by decide), dif_pos (show (0 : Fin S400x64.rank) ∈ dot_S400x64_S64x32_S400x32_1_0_0_1_n_n.lhsNonContracting by decide)]
  rfl
theorem lhs_hw_1 (i : S400x32.Idx) (q : dot_S400x64_S64x32_S400x32_1_0_0_1_n_n.contr.Idx) :
    (dot_S400x64_S64x32_S400x32_1_0_0_1_n_n.lhsIdx i q 1).val = (q ⟨0, by decide⟩).val :=
  dot_S400x64_S64x32_S400x32_1_0_0_1_n_n.lhsIdx_val_of_single rfl i q
theorem rhs_hw_0 (i : S400x32.Idx) (q : dot_S400x64_S64x32_S400x32_1_0_0_1_n_n.contr.Idx) :
    (dot_S400x64_S64x32_S400x32_1_0_0_1_n_n.rhsIdx i q 0).val = (q ⟨0, by decide⟩).val :=
  dot_S400x64_S64x32_S400x32_1_0_0_1_n_n.rhsIdx_val_of_single rfl i q
theorem rhs_hw_1 (i : S400x32.Idx) (q : dot_S400x64_S64x32_S400x32_1_0_0_1_n_n.contr.Idx) :
    (dot_S400x64_S64x32_S400x32_1_0_0_1_n_n.rhsIdx i q 1).val = (i 1).val := by
  unfold DotDims.rhsIdx
  rw [dif_neg (show ¬(1 : Fin S64x32.rank) ∈ dot_S400x64_S64x32_S400x32_1_0_0_1_n_n.rhsBatch by decide), dif_pos (show (1 : Fin S64x32.rank) ∈ dot_S400x64_S64x32_S400x32_1_0_0_1_n_n.rhsNonContracting by decide)]
  rfl
/-- At the ideal values the product into the zero accumulator, read at (p, j), is the sum over the contracted axis of
    the left operand's row p times the right operand's column j. -/
theorem matmul_hw_apply (lhs : FVec Ideal S400x64 .f32) (rhs : FVec Ideal S64x32 .f32) (p : Fin 400) (j : Fin 32) :
    matmul (F := Ideal) dot_S400x64_S64x32_S400x32_1_0_0_1_n_n none lhs rhs (constant (F := Ideal) S400x32 .f32 0x00000000#32) (ix2 p j)
      = ∑ k : Fin 64, lhs (ix2 p k) * rhs (ix2 k j) := by
  simp only [matmul]
  rw [Ideal.matmul_constant_zero_apply, ← Equiv.sum_comp (ValueIdx.contrEquiv1 dot_S400x64_S64x32_S400x32_1_0_0_1_n_n 64 rfl rfl).symm]
  refine Finset.sum_congr rfl fun k _ => ?_
  have hk := ValueIdx.contrEquiv1_symm_val dot_S400x64_S64x32_S400x32_1_0_0_1_n_n 64 rfl rfl k
  have el : dot_S400x64_S64x32_S400x32_1_0_0_1_n_n.lhsIdx (ix2 p j) ((ValueIdx.contrEquiv1 dot_S400x64_S64x32_S400x32_1_0_0_1_n_n 64 rfl rfl).symm k) = ix2 p k := funext fun a => Fin.ext (by
    match a with
    | ⟨0, _⟩ => exact lhs_hw_0 _ _
    | ⟨1, _⟩ => exact (lhs_hw_1 _ _).trans hk)
  have er : dot_S400x64_S64x32_S400x32_1_0_0_1_n_n.rhsIdx (ix2 p j) ((ValueIdx.contrEquiv1 dot_S400x64_S64x32_S400x32_1_0_0_1_n_n 64 rfl rfl).symm k) = ix2 k j := funext fun a => Fin.ext (by
    match a with
    | ⟨0, _⟩ => exact (rhs_hw_0 _ _).trans hk
    | ⟨1, _⟩ => exact rhs_hw_1 _ _)
  rw [el, er]

theorem lhs_ah_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_ah_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_ah_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_ah_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl
/-- At the ideal values the product into the zero accumulator, read at (p, j), is the sum over the contracted axis of
    the left operand's row p times the right operand's column j. -/
theorem matmul_ah_apply (lhs : FVec Ideal S400x10000 .f32) (rhs : FVec Ideal S10000x32 .f32) (p : Fin 400) (j : Fin 32) :
    matmul (F := Ideal) dot_S400x10000_S10000x32_S400x32_1_0_0_1_n_n none lhs rhs (constant (F := Ideal) S400x32 .f32 0x00000000#32) (ix2 p j)
      = ∑ k : Fin 10000, lhs (ix2 p k) * rhs (ix2 k j) := by
  simp only [matmul]
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ix2 p j) ((ValueIdx.contrEquiv1 dot_S400x10000_S10000x32_S400x32_1_0_0_1_n_n 10000 rfl rfl).symm k) = ix2 p k := funext fun a => Fin.ext (by
    match a with
    | ⟨0, _⟩ => exact lhs_ah_0 _ _
    | ⟨1, _⟩ => exact (lhs_ah_1 _ _).trans hk)
  have er : dot_S400x10000_S10000x32_S400x32_1_0_0_1_n_n.rhsIdx (ix2 p j) ((ValueIdx.contrEquiv1 dot_S400x10000_S10000x32_S400x32_1_0_0_1_n_n 10000 rfl rfl).symm k) = ix2 k j := funext fun a => Fin.ext (by
    match a with
    | ⟨0, _⟩ => exact (rhs_ah_0 _ _).trans hk
    | ⟨1, _⟩ => exact rhs_ah_1 _ _)
  rw [el, er]

/-! ## The three stored values -/

/-- The first stored value at (l, h): row l of x against column h of W1. -/
theorem pay1_apply (x0 : FVec Ideal S10000x128 .f32) (w : FVec Ideal S128x64 .f32) (l : Fin 10000) (h : Fin 64) :
    k0_pay1 (F := Ideal) x0 w (ix2 l h) = ∑ f : Fin 128, x0 (ix2 l f) * w (ix2 f h) := by
  unfold k0_pay1
  simp only [shapeCast_self]
  exact matmul_xw_apply x0 w l h

/-- The second stored value at (p, j), for a stripe a of the adjacency, the whole first product s1, the bias as a one-row
    array b and the second weights w2. -/
theorem pay2_apply (a : FVec Ideal S400x10000 .f32) (s1 : FVec Ideal S10000x64 .f32) (b : FVec Ideal S1x64 .f32)
    (w2 : FVec Ideal S64x32 .f32) (p : Fin 400) (j : Fin 32) :
    k0_pay2 (F := Ideal) a s1 b w2 (ix2 p j)
      = ∑ h : Fin 64, max ((∑ l : Fin 10000, a (ix2 p l) * s1 (ix2 l h)) + b (ix2 (0 : Fin 1) h)) (Ideal.ofBits .f32 0x00000000#32)
          * w2 (ix2 h j) := by
  unfold k0_pay2
  simp only [shapeCast_self]
  rw [matmul_hw_apply]
  refine Finset.sum_congr rfl fun h _ => ?_
  rw [maximumf_apply, addf_apply, matmul_ax_apply, broadcastTo_1b_ab_apply, broadcast_apply]
  rfl

/-- The third stored value at (p, j), for a stripe a of the adjacency, the whole second product s2 and the bias as a
    one-row array b. -/
theorem pay3_apply (a : FVec Ideal S400x10000 .f32) (s2 : FVec Ideal S10000x32 .f32) (b : FVec Ideal S1x32 .f32)
    (p : Fin 400) (j : Fin 32) :
    k0_pay3 (F := Ideal) a s2 b (ix2 p j) = (∑ k : Fin 10000, a (ix2 p k) * s2 (ix2 k j)) + b (ix2 (0 : Fin 1) j) := by
  unfold k0_pay3
  simp only [shapeCast_self]
  rw [addf_apply, matmul_ah_apply, broadcastTo_1b_ab_apply]

end Cert.KernelIdeal.Hand.Products

end
-- ==== Proof.Value.Network.lean ====
/-
  The array the kernel's region leaves is the two-layer graph convolution of the program's six arguments. The first
  scratch buffer holds x·W1; stripe s of the second holds rows 400 s ‥ 400 s + 399 of max(adj·(x·W1) + b1, 0)·W2, because the
  point that stores it has staged exactly those rows of adj; so the second buffer, read at row k through stripe k / 400
  and row k % 400 of it, holds that product's row k. The output's row r is stored by point 49 − r / 400, which has staged
  stripe r / 400 of adj, at row r % 400 of its block: adj's row r against the second buffer, plus b2.
-/
import proofs.«131214_g16277926052538_cont_week2b_966_6_alg».proof.Proof.KI.Out
import proofs.«131214_g16277926052538_cont_week2b_966_6_alg».proof.Proof.Value.Blocks
import proofs.«131214_g16277926052538_cont_week2b_966_6_alg».proof.Proof.Value.Products
import proofs.«131214_g16277926052538_cont_week2b_966_6_alg».proof.Proof.Value.Spec

set_option maxRecDepth 16384

noncomputable section

namespace Cert.KernelIdeal.Hand.Network

open Idealize.ShloMosaic Idealize.ShloMosaic.TcCoe Idealize.SL.Sem Idealize.ShloMosaic.ValueIdx
open Cert.KernelIdeal Cert.KernelIdeal.Gen Cert.KernelIdeal.Hand Cert.KernelIdeal.Hand.Blocks Cert.KernelIdeal.Hand.Products
open Cert.Proof.Value

variable (m : (ℓ : Loc nD τ sig) → Buf (Elt Ideal) ℓ)

/-- The first scratch buffer's contents at (l, h): the features times the first weights. -/
theorem S1val_apply (c : Dev nD) (l : Fin 10000) (h : Fin 64) :
    S1val m c (ix2 l h) = xw (m ((c : Thread nD τ).loc main_arg0)) (m ((c : Thread nD τ).loc main_arg2)) l h := by
  unfold S1val
  rw [iblk1_eq, iblk2_eq]
  exact pay1_apply _ _ l h

/-- The stripe of the second product a point stores, at (p, j): row k of the whole product, k the row of adj that the
    point has staged at row p of its block. -/
theorem S2blk_apply (c : Dev nD) (t : Fin cfg0.N) (p : Fin 400) (j : Fin 32) (k : Fin 10000)
    (hk : k.val = 400 * (if t.val < 25 then t.val else 49 - t.val) + p.val) :
    S2blk m c t (ix2 p j)
      = hw (m ((c : Thread nD τ).loc main_arg0)) (m ((c : Thread nD τ).loc main_arg1)) (m ((c : Thread nD τ).loc main_arg2))
          (m ((c : Thread nD τ).loc main_arg3)) (m ((c : Thread nD τ).loc main_arg4)) k j := by
  unfold S2blk
  rw [iblk4_eq]
  refine (pay2_apply (iblk m c 0 t) (S1val m c) (iblk m c 3 t) (m ((c : Thread nD τ).loc main_arg4)) p j).trans ?_
  unfold hw hid
  refine Finset.sum_congr rfl fun h _ => ?_
  rw [iblk3_apply m c t 0 h]
  refine congrArg (fun s => max (s + m ((c : Thread nD τ).loc main_arg3) (ix1 h)) (Ideal.ofBits .f32 0x00000000#32)
    * m ((c : Thread nD τ).loc main_arg4) (ix2 h j)) (Finset.sum_congr rfl fun l _ => ?_)
  rw [iblk0_apply m c t p l k hk, S1val_apply]

/-- The second scratch buffer's contents once every stripe is stored, at (k, j). -/
theorem S2full_apply (c : Dev nD) (k : Fin 10000) (j : Fin 32) :
    S2full m c (ix2 k j)
      = hw (m ((c : Thread nD τ).loc main_arg0)) (m ((c : Thread nD τ).loc main_arg1)) (m ((c : Thread nD τ).loc main_arg2))
          (m ((c : Thread nD τ).loc main_arg3)) (m ((c : Thread nD τ).loc main_arg4)) k j := by
  unfold S2full
  exact S2blk_apply m c _ _ _ k (by
    show k.val = 400 * (if k.val / 400 < 25 then k.val / 400 else 49 - k.val / 400) + k.val % 400
    have := k.isLt
    rw [if_pos (by omega)]; omega)

/-- The output stripe a point stores, at (p, j): row r of the network's output, r the row of adj the point has staged
    at row p of its block. -/
theorem outBlk_apply (c : Dev nD) (t : Fin cfg0.N) (p : Fin 400) (j : Fin 32) (r : Fin 10000)
    (hr : r.val = 400 * (if t.val < 25 then t.val else 49 - t.val) + p.val) :
    outBlk m c t (ix2 p j)
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r j := by
  unfold outBlk
  refine (pay3_apply (iblk m c 0 t) (S2full m c) (iblk m c 5 t) p j).trans ?_
  unfold outAt
  rw [iblk5_apply m c t 0 j]
  refine congrArg (fun s => s + m ((c : Thread nD τ).loc main_arg5) (ix1 j)) (Finset.sum_congr rfl fun k _ => ?_)
  rw [iblk0_apply m c t p k r hr, S2full_apply]

/-- The array the region leaves is the network's output array. -/
theorem Gout_eq (c : Dev nD) :
    Gout m c
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨r, j, rfl⟩ : ∃ (r : Fin 10000) (j : Fin 32), i = ix2 r j := ⟨i 0, i 1, eq_ix2 i⟩
  rw [gcn_ix2]
  unfold Gout
  exact outBlk_apply m c _ _ _ r (by
    show r.val = 400 * (if 49 - r.val / 400 < 25 then 49 - r.val / 400 else 49 - (49 - r.val / 400)) + r.val % 400
    have := r.isLt
    rw [if_neg (by omega)]; omega)

end Cert.KernelIdeal.Hand.Network

end
-- ==== Proof.Value.Result.lean ====
/-
  The two idealized programs compute one function. The reference composes four matrix products with the bias rows and a
  pointwise maximum with zero over whole arrays; the kernel computes the same in stripes of four hundred rows of adj.
  At the ideal instance a matrix product is a finite sum over the contracted axis, so stripe by stripe and index by
  index the two are the same sums of the same terms.
-/
import proofs.«131214_g16277926052538_cont_week2b_966_6_alg».proof.Proof.KI.Out
import proofs.«131214_g16277926052538_cont_week2b_966_6_alg».proof.Proof.Value.RefRun
import proofs.«131214_g16277926052538_cont_week2b_966_6_alg».proof.Proof.Value.RefSpec
import proofs.«131214_g16277926052538_cont_week2b_966_6_alg».proof.Proof.Value.Network

noncomputable section

namespace Cert.Proof.Value

open Idealize.ShloMosaic Idealize.ShloMosaic.TcCoe Idealize.SL.Sem

open Cert.ReferenceIdeal Cert.ReferenceIdeal.Facts₀ Cert.ReferenceIdeal.Facts in
/-- The reference's result as the composed term of its six arguments (the term its generated run ends with). -/
abbrev refTerm (x : FVec Ideal S10000x128 .f32) (adj : FVec Ideal S10000x10000 .f32)
    (W1 : FVec Ideal S128x64 .f32) (b1 : FVec Ideal S64 .f32) (W2 : FVec Ideal S64x32 .f32) (b2 : FVec Ideal S32 .f32) :
    FVec Ideal S10000x32 .f32 :=
  addf (Host.dotGeneral dot_S10000x10000_S10000x32_S10000x32_1_0_0_1_n_n none adj (Host.dotGeneral dot_S10000x64_S64x32_S10000x32_1_0_0_1_n_n none (maximumf (addf (Host.dotGeneral dot_S10000x10000_S10000x64_S10000x64_1_0_0_1_n_n none adj (Host.dotGeneral dot_S10000x128_S128x64_S10000x64_1_0_0_1_n_n none x W1)) (broadcastInDim S10000x64 ![0, 1] bcast_S1x64_S10000x64_0_1 (broadcastInDim S1x64 ![1] bcast_S64_S1x64_1 b1))) (broadcastInDim S10000x64 ![] bcast_S_S10000x64 (constant S_ .f32 0x00000000#32))) W2)) (broadcastInDim S10000x32 ![0, 1] bcast_S1x32_S10000x32_0_1 (broadcastInDim S1x32 ![1] bcast_S32_S1x32_1 b2))

/-- THE BRIDGE: the reference's term of the kernel program's argument arrays is the array the kernel's region leaves. -/
theorem result_eq (m : (ℓ : Loc Cert.KernelIdeal.nD Cert.KernelIdeal.τ Cert.KernelIdeal.sig) → Buf (Elt Ideal) ℓ) (c : Dev Cert.KernelIdeal.nD) :
    refTerm (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Hand.Gout (F := Ideal) m c :=
  ((Cert.ReferenceIdeal.Read.val_main_v10_eq (F := Ideal) _ _ _ _ _ _).trans (ref_eq_gcn _ _ _ _ _ _)).trans
    (Cert.KernelIdeal.Hand.Network.Gout_eq m c).symm

end Cert.Proof.Value

end
-- ==== Proof.lean ====
/-
  A two-layer graph convolution, out = adj·(max(adj·(x·W1) + b1, 0)·W2) + b2, computed by one kernel over a grid of fifty
  points — the products of adj taken stripe by stripe of four hundred rows, the two intermediate matrices S1 = x·W1 and
  S2 = max(adj·S1 + b1, 0)·W2 kept in scratch buffers across the points — against the same formula over whole arrays.
  The three frames: the kernel's, at the word-level and at the ideal instance, from one proof generic in the float
  instance (the body run case by case on whole memrefs, relational pipeline data that name the scratch contents point by
  point and the output stripe from point 25 on, the library's frame run); the reference's from its run. The idealization
  changes nothing in the kernel (no rewrite applies), so what it preserves is trivial. At the ideal instance the kernel's
  output array is one function of the six argument arrays, and the reference's composed term of arguments that agree is
  the same function, index by index: the same finite sums of the same terms.
-/
import proofs.«131214_g16277926052538_cont_week2b_966_6_alg».proof.Defs
import proofs.«131214_g16277926052538_cont_week2b_966_6_alg».proof.Proof.Gen.Kernel
import proofs.«131214_g16277926052538_cont_week2b_966_6_alg».proof.Proof.Gen.KernelIdeal
import proofs.«131214_g16277926052538_cont_week2b_966_6_alg».proof.Proof.Gen.ReferenceIdeal
import proofs.«131214_g16277926052538_cont_week2b_966_6_alg».proof.Proof.Gen.Pre_finite_inputs
import proofs.«131214_g16277926052538_cont_week2b_966_6_alg».proof.Proof.K.Launch
import proofs.«131214_g16277926052538_cont_week2b_966_6_alg».proof.Proof.KI.ValueRun
import proofs.«131214_g16277926052538_cont_week2b_966_6_alg».proof.Proof.Value.Result
import Idealize.ShloMosaic.Adequacy
import Idealize.ShloMosaic.Init

noncomputable section

namespace Cert.Proof

open Idealize.ShloMosaic Idealize.SL.Sem

/-- The word-level kernel runs, nothing faults, its arguments end unchanged. -/
theorem frame_k : Cert.frame_Kernel := fun m ρ _ => Cert.Kernel.Hand.frame m ρ

/-- The idealized kernel likewise. -/
theorem frame_ki : Cert.frame_KernelIdeal := fun m ρ _ => Cert.KernelIdeal.Hand.frame m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's output array ends at `Gout` of its arguments and the reference's result at its
    composed term of arguments that agree with them: one function. -/
theorem algebraic : Cert.algebraic_KernelIdeal_ReferenceIdeal := by
  intro m ρ m' ρ' _ hagree
  refine ⟨fun c => Cert.KernelIdeal.Hand.Gout (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.Proof.Value.result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
